-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16384 : Shape := ⟨2, ![2048, 16384]⟩
abbrev S16384 : Shape := ⟨1, ![16384]⟩
abbrev S16384x16 : Shape := ⟨2, ![16384, 16]⟩
abbrev S_ : Shape := ⟨0, ![]⟩

class Facts : Prop where
  bcast_S_S2048x16384 : S_.BroadcastsInDim S2048x16384 (![] : Fin 0 → Fin S2048x16384.rank)
  reducesTo_S2048x16384_S_d0_1 : S2048x16384.ReducesTo [0, 1] S_
  h_S_ : 0 < S_.numel
  bcast_S_S16384x16 : S_.BroadcastsInDim S16384x16 (![] : Fin 0 → Fin S16384x16.rank)
  reducesTo_S16384x16_S_d0_1 : S16384x16.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg2 : IVec S16384 32) (main_v12 : IVec S_ 1) (main_v15 : IVec S_ 1) : IVec S_ 1 :=
  let main_v16 : IVec S_ 1 := andi main_v12 main_v15
  let main_c_6 : IVec S_ 32 := constantI S_ 32 0#32
  let main_v17 : IVec S16384 32 := broadcastInDim S16384 ![] bcast_S_S16384 main_c_6
  let main_v18 : IVec S16384 1 := cmpi .sge main_arg2 main_v17
  let main_c_7 : IVec S_ 1 := constantI S_ 1 1#1
  let main_v19 : IVec S_ 1 := (fun x v => Host.reduce IntOp.andi x v reducesTo_S16384_S_d0 h_S_) main_v18 main_c_7
  let main_v20 : IVec S_ 1 := andi main_v16 main_v19
  let main_c_8 : IVec S_ 32 := constantI S_ 32 16384#32
  let main_v21 : IVec S16384 32 := broadcastInDim S16384 ![] bcast_S_S16384 main_c_8
  let main_v22 : IVec S16384 1 := cmpi .slt main_arg2 main_v21
  let main_c_9 : IVec S_ 1 := constantI S_ 1 1#1
  let main_v23 : IVec S_ 1 := (fun x v => Host.reduce IntOp.andi x v reducesTo_S16384_S_d0 h_S_) main_v22 main_c_9
  let main_v24 : IVec S_ 1 := andi main_v20 main_v23
  main_v24

def fn {F : FTy → Type} [FloatOps F] (main_arg0 : FVec F S2048x16384 .f32) (main_arg1 : IVec S16384 32) (main_arg2 : IVec S16384 32) (main_arg3 : FVec F S16384x16 .f32) : IVec S_ 1 :=
  let main_v0 : FVec F S2048x16384 .f32 := Host.absf main_arg0
  let main_cst : FVec F S_ .f32 := constant S_ .f32 0x7F800000#32
  let main_v1 : FVec F S2048x16384 .f32 := broadcastInDim S2048x16384 ![] bcast_S_S2048x16384 main_cst
  let main_v2 : IVec S2048x16384 1 := cmpf .olt main_v0 main_v1
  let main_c : IVec S_ 1 := constantI S_ 1 1#1
  let main_v3 : IVec S_ 1 := (fun x v => Host.reduce IntOp.andi x v reducesTo_S2048x16384_S_d0_1 h_S_) main_v2 main_c
  let main_v4 : FVec F S16384x16 .f32 := Host.absf main_arg3
  let main_cst_0 : FVec F S_ .f32 := constant S_ .f32 0x7F800000#32
  let main_v5 : FVec F S16384x16 .f32 := broadcastInDim S16384x16 ![] bcast_S_S16384x16 main_cst_0
  let main_v6 : IVec S16384x16 1 := cmpf .olt main_v4 main_v5
  let main_c_1 : IVec S_ 1 := constantI S_ 1 1#1
  let main_v7 : IVec S_ 1 := (fun x v => Host.reduce IntOp.andi x v reducesTo_S16384x16_S_d0_1 h_S_) main_v6 main_c_1
  let main_v8 : IVec S_ 1 := andi main_v3 main_v7
  let main_c_2 : IVec S_ 32 := constantI S_ 32 0#32
  let main_v9 : IVec S16384 32 := broadcastInDim S16384 ![] bcast_S_S16384 main_c_2
  let main_v10 : IVec S16384 1 := cmpi .sge main_arg1 main_v9
  let main_c_3 : IVec S_ 1 := constantI S_ 1 1#1
  let main_v11 : IVec S_ 1 := (fun x v => Host.reduce IntOp.andi x v reducesTo_S16384_S_d0 h_S_) main_v10 main_c_3
  let main_v12 : IVec S_ 1 := andi main_v8 main_v11
  let main_c_4 : IVec S_ 32 := constantI S_ 32 16384#32
  let main_v13 : IVec S16384 32 := broadcastInDim S16384 ![] bcast_S_S16384 main_c_4
  let main_v14 : IVec S16384 1 := cmpi .slt main_arg1 main_v13
  let main_c_5 : IVec S_ 1 := constantI S_ 1 1#1
  let main_v15 : IVec S_ 1 := (fun x v => Host.reduce IntOp.andi x v reducesTo_S16384_S_d0 h_S_) main_v14 main_c_5
  fn_part1 (F := F) main_arg2 main_v12 main_v15
-- ==== Kernel.lean ====
abbrev S2048x16384 : Shape := ⟨2, ![2048, 16384]⟩
abbrev S16384 : Shape := ⟨1, ![16384]⟩
abbrev S16384x16 : Shape := ⟨2, ![16384, 16]⟩
abbrev S16x4 : Shape := ⟨2, ![16, 4]⟩
abbrev S_ : Shape := ⟨0, ![]⟩
abbrev S16384x1 : Shape := ⟨2, ![16384, 1]⟩
abbrev S16384x4 : Shape := ⟨2, ![16384, 4]⟩
abbrev S4x16384 : Shape := ⟨2, ![4, 16384]⟩
abbrev S1x16384 : Shape := ⟨2, ![1, 16384]⟩
abbrev S512x512 : Shape := ⟨2, ![512, 512]⟩
abbrev S1x512 : Shape := ⟨2, ![1, 512]⟩
abbrev S4x512 : Shape := ⟨2, ![4, 512]⟩

abbrev nBuf : Space → Nat
  | .hbm => 24
  | .vmem => 12
  | .smem => 0
  | _ => 0

abbrev bufTy : (tb : Table) → Fin (tcTables nBuf tb) → BufTy
  | .hbm, ⟨0, _⟩ => ⟨S2048x16384, .f32⟩
  | .hbm, ⟨1, _⟩ => ⟨S16384, .i32⟩
  | .hbm, ⟨2, _⟩ => ⟨S16384, .i32⟩
  | .hbm, ⟨3, _⟩ => ⟨S16384x16, .f32⟩
  | .hbm, ⟨4, _⟩ => ⟨S16x4, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x16, .f32⟩
  | .hbm, ⟨12, _⟩ => ⟨S16384x16, .f32⟩
  | .hbm, ⟨13, _⟩ => ⟨S16384x16, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x16, .f32⟩
  | .hbm, ⟨18, _⟩ => ⟨S16384x16, .f32⟩
  | .hbm, ⟨19, _⟩ => ⟨S16384x4, .f32⟩
  | .hbm, ⟨20, _⟩ => ⟨S4x16384, .f32⟩
  | .hbm, ⟨21, _⟩ => ⟨S1x16384, .i32⟩
  | .hbm, ⟨22, _⟩ => ⟨S1x16384, .i32⟩
  | .hbm, ⟨23, _⟩ => ⟨S2048x16384, .f32⟩
  | .local _ .vmem, ⟨0, _⟩ => ⟨S512x512, .f32⟩
  | .local _ .vmem, ⟨1, _⟩ => ⟨S512x512, .f32⟩
  | .local _ .vmem, ⟨2, _⟩ => ⟨S1x512, .i32⟩
  | .local _ .vmem, ⟨3, _⟩ => ⟨S1x512, .i32⟩
  | .local _ .vmem, ⟨4, _⟩ => ⟨S1x512, .i32⟩
  | .local _ .vmem, ⟨5, _⟩ => ⟨S1x512, .i32⟩
  | .local _ .vmem, ⟨6, _⟩ => ⟨S4x512, .f32⟩
  | .local _ .vmem, ⟨7, _⟩ => ⟨S4x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 32, 32], ![false, false, false]⟩

def k0_cond2 (i : grid0.Coords) : BitVec 1 :=
  let arg2 : BitVec 32 := BitVec.ofNat 32 (i 2).val
  let c31_i32 : BitVec 32 := 31#32
  let v35 : BitVec 1 := Scalar.cmpi .eq arg2 c31_i32
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  transposes_S16384x4_S4x16384_1_0 : S16384x4.Transposes [1, 0] S4x16384
  shapeCasts_S16384_S1x16384 : S16384.ShapeCasts S1x16384
  inb_S512x512_S512x512_0_0 : ∀ a, (![0, 0] : Fin 2 → Nat) a + S512x512.size a ≤ S512x512.size a
  h_S512x512 : 0 < S512x512.numel
  shapeCasts_S512x512_S512x512 : S512x512.ShapeCasts S512x512
  iota_S512x512_d0_w32 : S512x512.Iotas .tc 32 [0]
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  natLt_1_32 : 1 < 32
  bitsLt_bf16_f32 : FTy.bits .bf16 < FTy.bits .f32
  inb_S4x512_S4x512_0_0 : ∀ a, (![0, 0] : Fin 2 → Nat) a + S4x512.size a ≤ S4x512.size a
  h_S4x512 : 0 < S4x512.numel
  shapeCasts_S4x512_S4x512 : S4x512.ShapeCasts S4x512
  slices_S4x512_o0_0_S1x512 : S4x512.Slices ![0, 0] S1x512
  slices_S4x512_o1_0_S1x512 : S4x512.Slices ![1, 0] S1x512
  slices_S4x512_o2_0_S1x512 : S4x512.Slices ![2, 0] S1x512
  slices_S4x512_o3_0_S1x512 : S4x512.Slices ![3, 0] S1x512
  dot_S16384x16_S16x4_S16384x4_1_0_0_1_n_n_wf : DotDims.WF S16384x16 S16x4 S16384x4 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S2048x16384.size a
  hwx0_0 : ∀ i : grid0.Coords, EltTy.bits .f32 = 32 ∨ (Rect.block (s := S2048x16384) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x16384.size a
  hwx0_1 : ∀ i : grid0.Coords, EltTy.bits .i32 = 32 ∨ (Rect.block (s := S1x16384) S1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .i32 = 32 ∨ (Rect.block (s := S1x16384) S1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x16384.size a
  hwx0_3 : ∀ i : grid0.Coords, EltTy.bits .f32 = 32 ∨ (Rect.block (s := S4x16384) S4x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S2048x16384.size a
  hwx0_4 : ∀ i : grid0.Coords, EltTy.bits .f32 = 32 ∨ (Rect.block (s := S2048x16384) S512x512.size (cc0_transform_4 i) (hinb0_4 i)).WholeWords (EltTy.packing .f32)

variable [Facts₀]

def dot_S16384x16_S16x4_S16384x4_1_0_0_1_n_n : DotDims S16384x16 S16x4 S16384x4 where
  lhsContracting := [1]
  rhsContracting := [0]
  lhsNonContracting := [0]
  rhsNonContracting := [1]
  lhsBatch := []
  rhsBatch := []
  wf := dot_S16384x16_S16x4_S16384x4_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S4x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x16384 : Shape := ⟨2, ![2048, 16384]⟩
abbrev S16384 : Shape := ⟨1, ![16384]⟩
abbrev S16384x16 : Shape := ⟨2, ![16384, 16]⟩
abbrev S16x4 : Shape := ⟨2, ![16, 4]⟩
abbrev S_ : Shape := ⟨0, ![]⟩
abbrev S16384x1 : Shape := ⟨2, ![16384, 1]⟩
abbrev S16384x4 : Shape := ⟨2, ![16384, 4]⟩
abbrev S1x16384 : Shape := ⟨2, ![1, 16384]⟩

abbrev nBuf : Space → Nat
  | .hbm => 61
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S16384, .i32⟩
  | .hbm, ⟨2, _⟩ => ⟨S16384, .i32⟩
  | .hbm, ⟨3, _⟩ => ⟨S16384x16, .f32⟩
  | .hbm, ⟨4, _⟩ => ⟨S16x4, .f32⟩
  | .hbm, ⟨5, _⟩ => ⟨S_, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384x1, .f32⟩
  | .hbm, ⟨11, _⟩ => ⟨S16384x16, .f32⟩
  | .hbm, ⟨12, _⟩ => ⟨S16384x16, .f32⟩
  | .hbm, ⟨13, _⟩ => ⟨S16384x16, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x16, .f32⟩
  | .hbm, ⟨18, _⟩ => ⟨S16384x16, .f32⟩
  | .hbm, ⟨19, _⟩ => ⟨S16384x4, .f32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S2048x16384, .f32⟩
  | .hbm, ⟨29, _⟩ => ⟨S_, .i32⟩
  | .hbm, ⟨30, _⟩ => ⟨S16384, .i32⟩
  | .hbm, ⟨31, _⟩ => ⟨S16384, .i1⟩
  | .hbm, ⟨32, _⟩ => ⟨S_, .i32⟩
  | .hbm, ⟨33, _⟩ => ⟨S16384, .i32⟩
  | .hbm, ⟨34, _⟩ => ⟨S16384, .i32⟩
  | .hbm, ⟨35, _⟩ => ⟨S16384, .i32⟩
  | .hbm, ⟨36, _⟩ => ⟨S16384x1, .i32⟩
  | .hbm, ⟨37, _⟩ => ⟨S2048x16384, .f32⟩
  | .hbm, ⟨38, _⟩ => ⟨S16384x1, .f32⟩
  | .hbm, ⟨39, _⟩ => ⟨S16384, .f32⟩
  | .hbm, ⟨40, _⟩ => ⟨S16384x1, .f32⟩
  | .hbm, ⟨41, _⟩ => ⟨S16384, .f32⟩
  | .hbm, ⟨42, _⟩ => ⟨S1x16384, .f32⟩
  | .hbm, ⟨43, _⟩ => ⟨S2048x16384, .f32⟩
  | .hbm, ⟨44, _⟩ => ⟨S2048x16384, .f32⟩
  | .hbm, ⟨45, _⟩ => ⟨S1x16384, .f32⟩
  | .hbm, ⟨46, _⟩ => ⟨S2048x16384, .f32⟩
  | .hbm, ⟨47, _⟩ => ⟨S2048x16384, .f32⟩
  | .hbm, ⟨48, _⟩ => ⟨S16384x1, .f32⟩
  | .hbm, ⟨49, _⟩ => ⟨S16384, .f32⟩
  | .hbm, ⟨50, _⟩ => ⟨S1x16384, .f32⟩
  | .hbm, ⟨51, _⟩ => ⟨S2048x16384, .f32⟩
  | .hbm, ⟨52, _⟩ => ⟨S2048x16384, .f32⟩
  | .hbm, ⟨53, _⟩ => ⟨S2048x16384, .f32⟩
  | .hbm, ⟨54, _⟩ => ⟨S16384x1, .f32⟩
  | .hbm, ⟨55, _⟩ => ⟨S16384, .f32⟩
  | .hbm, ⟨56, _⟩ => ⟨S2048x16384, .f32⟩
  | .hbm, ⟨57, _⟩ => ⟨S1x16384, .f32⟩
  | .hbm, ⟨58, _⟩ => ⟨S2048x16384, .f32⟩
  | .hbm, ⟨59, _⟩ => ⟨S2048x16384, .f32⟩
  | .hbm, ⟨60, _⟩ => ⟨S2048x16384, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_cst_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]

class Facts₀ : Prop where
  reducesTo_S16384x16_S16384_d1 : S16384x16.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x16_0_1 : S16384x1.BroadcastsInDim S16384x16 (![0, 1] : Fin 2 → Fin S16384x16.rank)
  slices_S16384x4_S16384x1_0_0 : S16384x4.Slices ![0, 0] S16384x1
  shapeCasts_S16384x1_S16384 : S16384x1.ShapeCasts S16384
  slices_S16384x4_S16384x1_0_1 : S16384x4.Slices ![0, 1] S16384x1
  bcast_S16384_S1x16384_1 : S16384.BroadcastsInDim S1x16384 (![1] : Fin 1 → Fin S1x16384.rank)
  bcast_S1x16384_S2048x16384_0_1 : S1x16384.BroadcastsInDim S2048x16384 (![0, 1] : Fin 2 → Fin S2048x16384.rank)
  slices_S16384x4_S16384x1_0_2 : S16384x4.Slices ![0, 2] S16384x1
  slices_S16384x4_S16384x1_0_3 : S16384x4.Slices ![0, 3] S16384x1
  dot_S16384x16_S16x4_S16384x4_1_0_0_1_n_n_wf : DotDims.WF S16384x16 S16x4 S16384x4 [1] [0] [0] [1] [] []
  gather_S2048x16384_S16384x1_S2048x16384_0_1_n_n_1_1_20481_wf : GatherDims.WF S2048x16384 S16384x1 S2048x16384 [0] [1] [] [1] [] 1 ![2048, 1]

variable [Facts₀]

def dot_S16384x16_S16x4_S16384x4_1_0_0_1_n_n : DotDims S16384x16 S16x4 S16384x4 where
  lhsContracting := [1]
  rhsContracting := [0]
  lhsNonContracting := [0]
  rhsNonContracting := [1]
  lhsBatch := []
  rhsBatch := []
  wf := dot_S16384x16_S16x4_S16384x4_1_0_0_1_n_n_wf
def gather_S2048x16384_S16384x1_S2048x16384_0_1_n_n_1_1_20481 : GatherDims S2048x16384 S16384x1 S2048x16384 where
  offsetDims := [0]
  collapsedSliceDims := [1]
  operandBatchingDims := []
  startIndicesBatchingDims := []
  startIndexMap := [1]
  indexVectorDim := 1
  sliceSizes := ![2048, 1]
  wf := gather_S2048x16384_S16384x1_S2048x16384_0_1_n_n_1_1_20481_wf

class Facts : Prop extends Facts₀ where

variable [Facts]
-- ==== Proof.PreDecode.lean ====
/-
  What the precondition says about the two index vectors: it is the conjunction of six "all entries satisfy"
  reductions, and its last four are `0 ≤ idx_a`, `idx_a < 16384`, `0 ≤ idx_b`, `idx_b < 16384` as signed
  32-bit comparisons. A word that is non-negative as a signed integer and below 16384 has unsigned value below
  16384. (The two finiteness conjuncts are not used: no law this certificate needs fails at an infinity.)
-/
import proofs.«400150_j57509612094159_1_alg».proof.Pre_finite_inputs
import proofs.«400150_j57509612094159_1_alg».proof.Proof.Gen.Pre_finite_inputs
import Idealize.ShloMosaic.Lib.ValueIdx
import Idealize.ShloMosaic.Lib.ReduceAll
import Idealize.ShloMosaic.Lib.StableHlo.Predicate

noncomputable section

namespace Cert.LogicLayer.PreDecode

open Cert.Pre_finite_inputs Cert.Pre_finite_inputs.Gen Idealize.ShloMosaic Idealize.ShloMosaic.ValueIdx

variable {F : FTy → Type} [FloatOps F]

/-- The result shape of every reduction here has no axis, hence exactly one index. -/
private instance scalarIdxSubsingleton : Subsingleton S_.Idx := ⟨fun a b => funext fun d => d.elim0⟩

/-- Word arithmetic: a 32-bit word that is at least 0 and below 16384 as a signed integer has its top bit clear
    (so its signed and unsigned readings agree) and therefore an unsigned value below 16384. -/
private theorem word_lt (v : BitVec 32) (h0 : IntOp.cmpi .sge v 0#32 = 1#1) (h1 : IntOp.cmpi .slt v 16384#32 = 1#1) :
    v.toNat < 16384 := by
  have hpos : 2 * v.toNat < 2 ^ 32 := by
    rw [IntOp.cmpi_sge, show (0#32 : BitVec 32).toInt = 0 from by decide] at h0
    exact BitVec.toInt_pos_iff.1 h0
  have hv : v.toNat < 2 ^ 31 := by omega
  have hc : (16384#32 : BitVec 32).toNat < 2 ^ 31 := by decide
  have := (StableHlo.Predicate.slt_iff_toNat hv hc).1 h1
  simpa using this

/-- One conjunct read at an entry: when the "all" reduction of the pointwise signed comparison of a vector with a
    broadcast scalar constant is 1, the comparison of each entry with that constant is 1. -/
private theorem all_cmp (p : CmpIPredicate) (v : IVec S16384 32) (c : BitVec 32) (init : IVec S_ 1)
    (e : Host.reduce IntOp.andi (cmpi p v (broadcastInDim S16384 ![] Facts.bcast_S_S16384 (constantI S_ 32 c))) init
          Facts.reducesTo_S16384_S_d0 Facts.h_S_ ix0 = 1#1) (j : Fin 16384) :
    IntOp.cmpi p (v (ix1 j)) c = 1#1 := by
  have hj := Host.reduce_andi_all _ init Facts.reducesTo_S16384_S_d0 Facts.h_S_ ix0 e (ix1 j)
  -- the comparison of vectors is entrywise; a scalar broadcast reads the scalar at every index
  have hb : broadcastInDim S16384 ![] Facts.bcast_S_S16384 (constantI S_ 32 c) (ix1 j) = c :=
    (StableHlo.Predicate.bcast_scalar Facts.bcast_S_S16384 Facts.h_S_ (constantI S_ 32 c) (ix1 j)).trans rfl
  rw [← hb]
  exact hj

/-- Under the precondition every entry of both index vectors is a word below 16384. -/
theorem idx_in_range (x : FVec F S2048x16384 .f32) (ia ib : IVec S16384 32) (w : FVec F S16384x16 .f32)
    (h : Cert.Pre_finite_inputs.fn (F := F) x ia ib w = fun _ => 1#1) :
    (∀ j : Fin 16384, (ia (ix1 j)).toNat < 16384) ∧ (∀ j : Fin 16384, (ib (ix1 j)).toNat < 16384) := by
  have e := congrFun h ix0
  dsimp only [Cert.Pre_finite_inputs.fn, Cert.Pre_finite_inputs.fn_part1] at e
  -- the outer joins are entrywise "and" of one-bit words: split them, keeping the four index conjuncts
  simp only [andi, IntOp.andi_eq_one] at e
  obtain ⟨⟨⟨⟨-, ha0⟩, ha1⟩, hb0⟩, hb1⟩ := e
  exact ⟨fun j => word_lt _ (all_cmp .sge ia _ _ ha0 j) (all_cmp .slt ia _ _ ha1 j),
    fun j => word_lt _ (all_cmp .sge ib _ _ hb0 j) (all_cmp .slt ib _ _ hb1 j)⟩

end Cert.LogicLayer.PreDecode

end
-- ==== Proof.KHost.lean ====
/-
  What the kernel's pallas_call finds in its three computed operands: the coefficient array transposed to
  [4, 16384] (so that an output block's four coefficient rows are lane-aligned with its columns), and the two index
  vectors reshaped to one row [1, 16384]. `kcoef` is the coefficient chain itself — softmax of the weights' rows
  times the literal table — which is never opened: the reference computes the same chain.
-/
import proofs.«400150_j57509612094159_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.KHost

open Cert.KernelIdeal Cert.KernelIdeal.Gen Idealize.ShloMosaic Idealize.ShloMosaic.TcCoe Idealize.SL.Sem Idealize.ShloMosaic.StableHlo
open Idealize.ShloMosaic.ValueIdx

variable {F : FTy → Type} [FloatOps F]

/-- The coefficient array [16384, 4] of the weights [16384, 16]: softmax along each row, then the product with
    the literal table of the sixteen operations' polynomial coefficients. -/
def kcoef (main_arg3 : (⟨S16384x16, .f32⟩ : BufTy).Contents (Elt F)) : (⟨S16384x4, .f32⟩ : BufTy).Contents (Elt F) :=
  let main_cst : (⟨S16x4, .f32⟩ : BufTy).Contents (Elt F) := fun i => FloatOps.ofBits .f32 (lit0 (S16x4.rowMajor i))
  let main_cst_0 : (⟨S_, .f32⟩ : BufTy).Contents (Elt F) := constant S_ .f32 0xFF800000#32
  let main_v0 : (⟨S16384, .f32⟩ : BufTy).Contents (Elt F) := ((fun x v => Host.reduce FloatOps.maximumf x v reducesTo_S16384x16_S16384_d1 h_S_) : (⟨S16384x16, .f32⟩ : BufTy).Contents (Elt F) → (⟨S_, .f32⟩ : BufTy).Contents (Elt F) → (⟨S16384, .f32⟩ : BufTy).Contents (Elt F)) main_arg3 main_cst_0
  let main_cst_1 : (⟨S_, .f32⟩ : BufTy).Contents (Elt F) := constant S_ .f32 0xFF800000#32
  let main_v1 : (⟨S16384, .f32⟩ : BufTy).Contents (Elt F) := (broadcastInDim S16384 ![] bcast_S_S16384 : (⟨S_, .f32⟩ : BufTy).Contents (Elt F) → (⟨S16384, .f32⟩ : BufTy).Contents (Elt F)) main_cst_1
  let main_v2 : (⟨S16384, .f32⟩ : BufTy).Contents (Elt F) := (maximumf : (⟨S16384, .f32⟩ : BufTy).Contents (Elt F) → (⟨S16384, .f32⟩ : BufTy).Contents (Elt F) → (⟨S16384, .f32⟩ : BufTy).Contents (Elt F)) main_v1 main_v0
  let main_v3 : (⟨S16384x1, .f32⟩ : BufTy).Contents (Elt F) := (broadcastInDim S16384x1 ![0] bcast_S16384_S16384x1_0 : (⟨S16384, .f32⟩ : BufTy).Contents (Elt F) → (⟨S16384x1, .f32⟩ : BufTy).Contents (Elt F)) main_v2
  let main_v4 : (⟨S16384x16, .f32⟩ : BufTy).Contents (Elt F) := (broadcastInDim S16384x16 ![0, 1] bcast_S16384x1_S16384x16_0_1 : (⟨S16384x1, .f32⟩ : BufTy).Contents (Elt F) → (⟨S16384x16, .f32⟩ : BufTy).Contents (Elt F)) main_v3
  let main_v5 : (⟨S16384x16, .f32⟩ : BufTy).Contents (Elt F) := (subf : (⟨S16384x16, .f32⟩ : BufTy).Contents (Elt F) → (⟨S16384x16, .f32⟩ : BufTy).Contents (Elt F) → (⟨S16384x16, .f32⟩ : BufTy).Contents (Elt F)) main_arg3 main_v4
  let main_v6 : (⟨S16384x16, .f32⟩ : BufTy).Contents (Elt F) := (Host.exp : (⟨S16384x16, .f32⟩ : BufTy).Contents (Elt F) → (⟨S16384x16, .f32⟩ : BufTy).Contents (Elt F)) main_v5
  let main_cst_2 : (⟨S_, .f32⟩ : BufTy).Contents (Elt F) := constant S_ .f32 0x00000000#32
  let main_v7 : (⟨S16384, .f32⟩ : BufTy).Contents (Elt F) := ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)) main_v6 main_cst_2
  let main_v8 : (⟨S16384x1, .f32⟩ : BufTy).Contents (Elt F) := (broadcastInDim S16384x1 ![0] bcast_S16384_S16384x1_0 : (⟨S16384, .f32⟩ : BufTy).Contents (Elt F) → (⟨S16384x1, .f32⟩ : BufTy).Contents (Elt F)) main_v7
  let main_v9 : (⟨S16384x16, .f32⟩ : BufTy).Contents (Elt F) := (broadcastInDim S16384x16 ![0, 1] bcast_S16384x1_S16384x16_0_1 : (⟨S16384x1, .f32⟩ : BufTy).Contents (Elt F) → (⟨S16384x16, .f32⟩ : BufTy).Contents (Elt F)) main_v8
  let main_v10 : (⟨S16384x16, .f32⟩ : BufTy).Contents (Elt F) := (Host.divf : (⟨S16384x16, .f32⟩ : BufTy).Contents (Elt F) → (⟨S16384x16, .f32⟩ : BufTy).Contents (Elt F) → (⟨S16384x16, .f32⟩ : BufTy).Contents (Elt F)) main_v6 main_v9
  let main_v11 : (⟨S16384x4, .f32⟩ : BufTy).Contents (Elt F) := ((fun l r => Host.dotGeneral dot_S16384x16_S16x4_S16384x4_1_0_0_1_n_n none l r) : (⟨S16384x16, .f32⟩ : BufTy).Contents (Elt F) → (⟨S16x4, .f32⟩ : BufTy).Contents (Elt F) → (⟨S16384x4, .f32⟩ : BufTy).Contents (Elt F)) main_v10 main_cst
  main_v11

variable (m : (ℓ : Loc nD τ sig) → Buf (Elt F) ℓ)

/-- The coefficient operand as the region finds it: the transpose of the coefficient array. -/
theorem V_main_v12 (c : Dev nD) :
    (V m c main_v12 : (⟨S4x16384, .f32⟩ : BufTy).Contents (Elt F))
      = transpose S4x16384 [1, 0] (kcoef (m ((c : Thread nD τ).loc main_arg3))) transposes_S16384x4_S4x16384_1_0 := by
  -- Run the host operations in order: each writes its own buffer and leaves the others, so the transposed
  -- buffer holds the transpose of the sixteen-operation chain over the launched weights, which is `kcoef`'s
  -- chain of lets read off operation by operation.
  dsimp only [Gen.V, Gen.hostOps0]
  after_results
  rfl

/-- The first index operand as the region finds it: the index vector as one row. -/
theorem V_main_v13 (c : Dev nD) :
    (V m c main_v13 : (⟨S1x16384, .i32⟩ : BufTy).Contents (Elt F))
      = shapeCast S1x16384 (m ((c : Thread nD τ).loc main_arg1)) shapeCasts_S16384_S1x16384 := by
  -- Only the reshape writes this buffer, and its operand is an argument no operation writes: the buffer holds
  -- the launched index vector read at the one-row shape.
  dsimp only [Gen.V, Gen.hostOps0]
  after_results
  rfl

/-- The second index operand as the region finds it. -/
theorem V_main_v14 (c : Dev nD) :
    (V m c main_v14 : (⟨S1x16384, .i32⟩ : BufTy).Contents (Elt F))
      = shapeCast S1x16384 (m ((c : Thread nD τ).loc main_arg2)) shapeCasts_S16384_S1x16384 := by
  -- As for the first index operand.
  dsimp only [Gen.V, Gen.hostOps0]
  after_results
  rfl

/-- Row `s`, column `j` of the coefficient operand is coefficient `s` of neuron `j`. -/
theorem cf_apply (c : Dev nD) (s : Fin 4) (j : Fin 16384) :
    (V m c main_v12 : (⟨S4x16384, .f32⟩ : BufTy).Contents (Elt F)) (ix2 s j)
      = kcoef (m ((c : Thread nD τ).loc main_arg3)) (ix2 j s) := by
  -- A transposed matrix at (s, j) is the matrix at (j, s).
  exact (congrFun (V_main_v12 m c) (ix2 s j)).trans
    (transpose_ix2_apply (kcoef (m ((c : Thread nD τ).loc main_arg3))) transposes_S16384x4_S4x16384_1_0 s j)

/-- Column `j` of the first index operand's one row is index word `j`. -/
theorem ia_apply (c : Dev nD) (j : Fin 16384) :
    (V m c main_v13 : (⟨S1x16384, .i32⟩ : BufTy).Contents (Elt F)) (ix2 (0 : Fin 1) j)
      = (m ((c : Thread nD τ).loc main_arg1) : (⟨S16384, .i32⟩ : BufTy).Contents (Elt F)) (ix1 j) := by
  -- A vector read as one row: entry (0, j) of the row is entry j of the vector (same row-major position).
  exact (congrFun (V_main_v13 m c) (ix2 (0 : Fin 1) j)).trans
    (shapeCast_a_1a_apply (m ((c : Thread nD τ).loc main_arg1) : (⟨S16384, .i32⟩ : BufTy).Contents (Elt F))
      shapeCasts_S16384_S1x16384 0 j)

/-- Column `j` of the second index operand's one row is index word `j`. -/
theorem ib_apply (c : Dev nD) (j : Fin 16384) :
    (V m c main_v14 : (⟨S1x16384, .i32⟩ : BufTy).Contents (Elt F)) (ix2 (0 : Fin 1) j)
      = (m ((c : Thread nD τ).loc main_arg2) : (⟨S16384, .i32⟩ : BufTy).Contents (Elt F)) (ix1 j) := by
  -- As for the first index operand.
  exact (congrFun (V_main_v14 m c) (ix2 (0 : Fin 1) j)).trans
    (shapeCast_a_1a_apply (m ((c : Thread nD τ).loc main_arg2) : (⟨S16384, .i32⟩ : BufTy).Contents (Elt F))
      shapeCasts_S16384_S1x16384 0 j)

end Cert.KernelIdeal.KHost

end
-- ==== Proof.RefTerm.lean ====
/-
  The reference program's result as ONE term of its four argument arrays, in two stages.
  `coef w`: the per-neuron polynomial coefficients — a softmax of each row of the weights (row maximum
  subtracted, exponential, divided by the row sum) multiplied into the fixed 16 × 4 table of the sixteen
  binary logic operations' coefficients: a [16384, 4] array.
  `tail C x ia ib`: with those coefficients `C`, the two column gathers `a = x[:, ia]`, `b = x[:, ib]`
  (an index below zero first shifted up by the row length, as numpy indexing does) and the polynomial
  `C[:,0] + C[:,1]·a + C[:,2]·b + C[:,3]·(a·b)`, each coefficient column broadcast along the batch axis.
  One `let` per operation of the printed program, in its order and under its names.
-/
import proofs.«400150_j57509612094159_1_alg».proof.ReferenceIdeal
import proofs.«400150_j57509612094159_1_alg».proof.Proof.Gen.ReferenceIdeal

noncomputable section

namespace Cert.ReferenceIdeal.RefTerm

open Cert.ReferenceIdeal Cert.ReferenceIdeal.Gen Idealize.ShloMosaic Idealize.ShloMosaic.TcCoe

variable {F : FTy → Type} [FloatOps F]

/-- The coefficient array [16384, 4] of the weights [16384, 16]: softmax along each row, then the product with
    the literal table of the sixteen operations' polynomial coefficients. -/
def coef (main_arg3 : (⟨S16384x16, .f32⟩ : BufTy).Contents (Elt F)) : (⟨S16384x4, .f32⟩ : BufTy).Contents (Elt F) :=
  let main_cst : (⟨S16x4, .f32⟩ : BufTy).Contents (Elt F) := fun i => FloatOps.ofBits .f32 (lit0 (S16x4.rowMajor i))
  let main_cst_0 : (⟨S_, .f32⟩ : BufTy).Contents (Elt F) := constant S_ .f32 0xFF800000#32
  let main_v0 : (⟨S16384, .f32⟩ : BufTy).Contents (Elt F) := ((fun x v => Host.reduce FloatOps.maximumf x v reducesTo_S16384x16_S16384_d1 h_S_) : (⟨S16384x16, .f32⟩ : BufTy).Contents (Elt F) → (⟨S_, .f32⟩ : BufTy).Contents (Elt F) → (⟨S16384, .f32⟩ : BufTy).Contents (Elt F)) main_arg3 main_cst_0
  let main_cst_1 : (⟨S_, .f32⟩ : BufTy).Contents (Elt F) := constant S_ .f32 0xFF800000#32
  let main_v1 : (⟨S16384, .f32⟩ : BufTy).Contents (Elt F) := (broadcastInDim S16384 ![] bcast_S_S16384 : (⟨S_, .f32⟩ : BufTy).Contents (Elt F) → (⟨S16384, .f32⟩ : BufTy).Contents (Elt F)) main_cst_1
  let main_v2 : (⟨S16384, .f32⟩ : BufTy).Contents (Elt F) := (maximumf : (⟨S16384, .f32⟩ : BufTy).Contents (Elt F) → (⟨S16384, .f32⟩ : BufTy).Contents (Elt F) → (⟨S16384, .f32⟩ : BufTy).Contents (Elt F)) main_v1 main_v0
  let main_v3 : (⟨S16384x1, .f32⟩ : BufTy).Contents (Elt F) := (broadcastInDim S16384x1 ![0] bcast_S16384_S16384x1_0 : (⟨S16384, .f32⟩ : BufTy).Contents (Elt F) → (⟨S16384x1, .f32⟩ : BufTy).Contents (Elt F)) main_v2
  let main_v4 : (⟨S16384x16, .f32⟩ : BufTy).Contents (Elt F) := (broadcastInDim S16384x16 ![0, 1] bcast_S16384x1_S16384x16_0_1 : (⟨S16384x1, .f32⟩ : BufTy).Contents (Elt F) → (⟨S16384x16, .f32⟩ : BufTy).Contents (Elt F)) main_v3
  let main_v5 : (⟨S16384x16, .f32⟩ : BufTy).Contents (Elt F) := (subf : (⟨S16384x16, .f32⟩ : BufTy).Contents (Elt F) → (⟨S16384x16, .f32⟩ : BufTy).Contents (Elt F) → (⟨S16384x16, .f32⟩ : BufTy).Contents (Elt F)) main_arg3 main_v4
  let main_v6 : (⟨S16384x16, .f32⟩ : BufTy).Contents (Elt F) := (Host.exp : (⟨S16384x16, .f32⟩ : BufTy).Contents (Elt F) → (⟨S16384x16, .f32⟩ : BufTy).Contents (Elt F)) main_v5
  let main_cst_2 : (⟨S_, .f32⟩ : BufTy).Contents (Elt F) := constant S_ .f32 0x00000000#32
  let main_v7 : (⟨S16384, .f32⟩ : BufTy).Contents (Elt F) := ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)) main_v6 main_cst_2
  let main_v8 : (⟨S16384x1, .f32⟩ : BufTy).Contents (Elt F) := (broadcastInDim S16384x1 ![0] bcast_S16384_S16384x1_0 : (⟨S16384, .f32⟩ : BufTy).Contents (Elt F) → (⟨S16384x1, .f32⟩ : BufTy).Contents (Elt F)) main_v7
  let main_v9 : (⟨S16384x16, .f32⟩ : BufTy).Contents (Elt F) := (broadcastInDim S16384x16 ![0, 1] bcast_S16384x1_S16384x16_0_1 : (⟨S16384x1, .f32⟩ : BufTy).Contents (Elt F) → (⟨S16384x16, .f32⟩ : BufTy).Contents (Elt F)) main_v8
  let main_v10 : (⟨S16384x16, .f32⟩ : BufTy).Contents (Elt F) := (Host.divf : (⟨S16384x16, .f32⟩ : BufTy).Contents (Elt F) → (⟨S16384x16, .f32⟩ : BufTy).Contents (Elt F) → (⟨S16384x16, .f32⟩ : BufTy).Contents (Elt F)) main_v6 main_v9
  let main_v11 : (⟨S16384x4, .f32⟩ : BufTy).Contents (Elt F) := ((fun l r => Host.dotGeneral dot_S16384x16_S16x4_S16384x4_1_0_0_1_n_n none l r) : (⟨S16384x16, .f32⟩ : BufTy).Contents (Elt F) → (⟨S16x4, .f32⟩ : BufTy).Contents (Elt F) → (⟨S16384x4, .f32⟩ : BufTy).Contents (Elt F)) main_v10 main_cst
  main_v11

/-- The result [2048, 16384] from the coefficients `main_v11`, the input `main_arg0` and the two index vectors. -/
def tail (main_v11 : (⟨S16384x4, .f32⟩ : BufTy).Contents (Elt F)) (main_arg0 : (⟨S2048x16384, .f32⟩ : BufTy).Contents (Elt F))
    (main_arg1 main_arg2 : (⟨S16384, .i32⟩ : BufTy).Contents (Elt F)) : (⟨S2048x16384, .f32⟩ : BufTy).Contents (Elt F) :=
  let main_c : (⟨S_, .i32⟩ : BufTy).Contents (Elt F) := constantI S_ 32 0#32
  let main_v12 : (⟨S16384, .i32⟩ : BufTy).Contents (Elt F) := (broadcastInDim S16384 ![] bcast_S_S16384 : (⟨S_, .i32⟩ : BufTy).Contents (Elt F) → (⟨S16384, .i32⟩ : BufTy).Contents (Elt F)) main_c
  let main_v13 : (⟨S16384, .i1⟩ : BufTy).Contents (Elt F) := (cmpi .slt : (⟨S16384, .i32⟩ : BufTy).Contents (Elt F) → (⟨S16384, .i32⟩ : BufTy).Contents (Elt F) → (⟨S16384, .i1⟩ : BufTy).Contents (Elt F)) main_arg1 main_v12
  let main_c_3 : (⟨S_, .i32⟩ : BufTy).Contents (Elt F) := constantI S_ 32 16384#32
  let main_v14 : (⟨S16384, .i32⟩ : BufTy).Contents (Elt F) := (broadcastInDim S16384 ![] bcast_S_S16384 : (⟨S_, .i32⟩ : BufTy).Contents (Elt F) → (⟨S16384, .i32⟩ : BufTy).Contents (Elt F)) main_c_3
  let main_v15 : (⟨S16384, .i32⟩ : BufTy).Contents (Elt F) := (addi : (⟨S16384, .i32⟩ : BufTy).Contents (Elt F) → (⟨S16384, .i32⟩ : BufTy).Contents (Elt F) → (⟨S16384, .i32⟩ : BufTy).Contents (Elt F)) main_arg1 main_v14
  let main_v16 : (⟨S16384, .i32⟩ : BufTy).Contents (Elt F) := (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) main_v13 main_v15 main_arg1
  let main_v17 : (⟨S16384x1, .i32⟩ : BufTy).Contents (Elt F) := (broadcastInDim S16384x1 ![0] bcast_S16384_S16384x1_0 : (⟨S16384, .i32⟩ : BufTy).Contents (Elt F) → (⟨S16384x1, .i32⟩ : BufTy).Contents (Elt F)) main_v16
  let main_v18 : (⟨S2048x16384, .f32⟩ : BufTy).Contents (Elt F) := ((fun x i => Host.gather gather_S2048x16384_S16384x1_S2048x16384_0_1_n_n_1_1_20481 x i) : (⟨S2048x16384, .f32⟩ : BufTy).Contents (Elt F) → (⟨S16384x1, .i32⟩ : BufTy).Contents (Elt F) → (⟨S2048x16384, .f32⟩ : BufTy).Contents (Elt F)) main_arg0 main_v17
  let main_c_4 : (⟨S_, .i32⟩ : BufTy).Contents (Elt F) := constantI S_ 32 0#32
  let main_v19 : (⟨S16384, .i32⟩ : BufTy).Contents (Elt F) := (broadcastInDim S16384 ![] bcast_S_S16384 : (⟨S_, .i32⟩ : BufTy).Contents (Elt F) → (⟨S16384, .i32⟩ : BufTy).Contents (Elt F)) main_c_4
  let main_v20 : (⟨S16384, .i1⟩ : BufTy).Contents (Elt F) := (cmpi .slt : (⟨S16384, .i32⟩ : BufTy).Contents (Elt F) → (⟨S16384, .i32⟩ : BufTy).Contents (Elt F) → (⟨S16384, .i1⟩ : BufTy).Contents (Elt F)) main_arg2 main_v19
  let main_c_5 : (⟨S_, .i32⟩ : BufTy).Contents (Elt F) := constantI S_ 32 16384#32
  let main_v21 : (⟨S16384, .i32⟩ : BufTy).Contents (Elt F) := (broadcastInDim S16384 ![] bcast_S_S16384 : (⟨S_, .i32⟩ : BufTy).Contents (Elt F) → (⟨S16384, .i32⟩ : BufTy).Contents (Elt F)) main_c_5
  let main_v22 : (⟨S16384, .i32⟩ : BufTy).Contents (Elt F) := (addi : (⟨S16384, .i32⟩ : BufTy).Contents (Elt F) → (⟨S16384, .i32⟩ : BufTy).Contents (Elt F) → (⟨S16384, .i32⟩ : BufTy).Contents (Elt F)) main_arg2 main_v21
  let main_v23 : (⟨S16384, .i32⟩ : BufTy).Contents (Elt F) := (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)) main_v20 main_v22 main_arg2
  let main_v24 : (⟨S16384x1, .i32⟩ : BufTy).Contents (Elt F) := (broadcastInDim S16384x1 ![0] bcast_S16384_S16384x1_0 : (⟨S16384, .i32⟩ : BufTy).Contents (Elt F) → (⟨S16384x1, .i32⟩ : BufTy).Contents (Elt F)) main_v23
  let main_v25 : (⟨S2048x16384, .f32⟩ : BufTy).Contents (Elt F) := ((fun x i => Host.gather gather_S2048x16384_S16384x1_S2048x16384_0_1_n_n_1_1_20481 x i) : (⟨S2048x16384, .f32⟩ : BufTy).Contents (Elt F) → (⟨S16384x1, .i32⟩ : BufTy).Contents (Elt F) → (⟨S2048x16384, .f32⟩ : BufTy).Contents (Elt F)) main_arg0 main_v24
  let main_v26 : (⟨S16384x1, .f32⟩ : BufTy).Contents (Elt F) := ((extractStridedSlice S16384x1 ![0, 0] · slices_S16384x4_S16384x1_0_0) : (⟨S16384x4, .f32⟩ : BufTy).Contents (Elt F) → (⟨S16384x1, .f32⟩ : BufTy).Contents (Elt F)) main_v11
  let main_v27 : (⟨S16384, .f32⟩ : BufTy).Contents (Elt F) := shapeCast S16384 main_v26 shapeCasts_S16384x1_S16384
  let main_v28 : (⟨S16384x1, .f32⟩ : BufTy).Contents (Elt F) := ((extractStridedSlice S16384x1 ![0, 1] · slices_S16384x4_S16384x1_0_1) : (⟨S16384x4, .f32⟩ : BufTy).Contents (Elt F) → (⟨S16384x1, .f32⟩ : BufTy).Contents (Elt F)) main_v11
  let main_v29 : (⟨S16384, .f32⟩ : BufTy).Contents (Elt F) := shapeCast S16384 main_v28 shapeCasts_S16384x1_S16384
  let main_v30 : (⟨S1x16384, .f32⟩ : BufTy).Contents (Elt F) := (broadcastInDim S1x16384 ![1] bcast_S16384_S1x16384_1 : (⟨S16384, .f32⟩ : BufTy).Contents (Elt F) → (⟨S1x16384, .f32⟩ : BufTy).Contents (Elt F)) main_v29
  let main_v31 : (⟨S2048x16384, .f32⟩ : BufTy).Contents (Elt F) := (broadcastInDim S2048x16384 ![0, 1] bcast_S1x16384_S2048x16384_0_1 : (⟨S1x16384, .f32⟩ : BufTy).Contents (Elt F) → (⟨S2048x16384, .f32⟩ : BufTy).Contents (Elt F)) main_v30
  let main_v32 : (⟨S2048x16384, .f32⟩ : BufTy).Contents (Elt F) := (mulf : (⟨S2048x16384, .f32⟩ : BufTy).Contents (Elt F) → (⟨S2048x16384, .f32⟩ : BufTy).Contents (Elt F) → (⟨S2048x16384, .f32⟩ : BufTy).Contents (Elt F)) main_v31 main_v18
  let main_v33 : (⟨S1x16384, .f32⟩ : BufTy).Contents (Elt F) := (broadcastInDim S1x16384 ![1] bcast_S16384_S1x16384_1 : (⟨S16384, .f32⟩ : BufTy).Contents (Elt F) → (⟨S1x16384, .f32⟩ : BufTy).Contents (Elt F)) main_v27
  let main_v34 : (⟨S2048x16384, .f32⟩ : BufTy).Contents (Elt F) := (broadcastInDim S2048x16384 ![0, 1] bcast_S1x16384_S2048x16384_0_1 : (⟨S1x16384, .f32⟩ : BufTy).Contents (Elt F) → (⟨S2048x16384, .f32⟩ : BufTy).Contents (Elt F)) main_v33
  let main_v35 : (⟨S2048x16384, .f32⟩ : BufTy).Contents (Elt F) := (addf : (⟨S2048x16384, .f32⟩ : BufTy).Contents (Elt F) → (⟨S2048x16384, .f32⟩ : BufTy).Contents (Elt F) → (⟨S2048x16384, .f32⟩ : BufTy).Contents (Elt F)) main_v34 main_v32
  let main_v36 : (⟨S16384x1, .f32⟩ : BufTy).Contents (Elt F) := ((extractStridedSlice S16384x1 ![0, 2] · slices_S16384x4_S16384x1_0_2) : (⟨S16384x4, .f32⟩ : BufTy).Contents (Elt F) → (⟨S16384x1, .f32⟩ : BufTy).Contents (Elt F)) main_v11
  let main_v37 : (⟨S16384, .f32⟩ : BufTy).Contents (Elt F) := shapeCast S16384 main_v36 shapeCasts_S16384x1_S16384
  let main_v38 : (⟨S1x16384, .f32⟩ : BufTy).Contents (Elt F) := (broadcastInDim S1x16384 ![1] bcast_S16384_S1x16384_1 : (⟨S16384, .f32⟩ : BufTy).Contents (Elt F) → (⟨S1x16384, .f32⟩ : BufTy).Contents (Elt F)) main_v37
  let main_v39 : (⟨S2048x16384, .f32⟩ : BufTy).Contents (Elt F) := (broadcastInDim S2048x16384 ![0, 1] bcast_S1x16384_S2048x16384_0_1 : (⟨S1x16384, .f32⟩ : BufTy).Contents (Elt F) → (⟨S2048x16384, .f32⟩ : BufTy).Contents (Elt F)) main_v38
  let main_v40 : (⟨S2048x16384, .f32⟩ : BufTy).Contents (Elt F) := (mulf : (⟨S2048x16384, .f32⟩ : BufTy).Contents (Elt F) → (⟨S2048x16384, .f32⟩ : BufTy).Contents (Elt F) → (⟨S2048x16384, .f32⟩ : BufTy).Contents (Elt F)) main_v39 main_v25
  let main_v41 : (⟨S2048x16384, .f32⟩ : BufTy).Contents (Elt F) := (addf : (⟨S2048x16384, .f32⟩ : BufTy).Contents (Elt F) → (⟨S2048x16384, .f32⟩ : BufTy).Contents (Elt F) → (⟨S2048x16384, .f32⟩ : BufTy).Contents (Elt F)) main_v35 main_v40
  let main_v42 : (⟨S16384x1, .f32⟩ : BufTy).Contents (Elt F) := ((extractStridedSlice S16384x1 ![0, 3] · slices_S16384x4_S16384x1_0_3) : (⟨S16384x4, .f32⟩ : BufTy).Contents (Elt F) → (⟨S16384x1, .f32⟩ : BufTy).Contents (Elt F)) main_v11
  let main_v43 : (⟨S16384, .f32⟩ : BufTy).Contents (Elt F) := shapeCast S16384 main_v42 shapeCasts_S16384x1_S16384
  let main_v44 : (⟨S2048x16384, .f32⟩ : BufTy).Contents (Elt F) := (mulf : (⟨S2048x16384, .f32⟩ : BufTy).Contents (Elt F) → (⟨S2048x16384, .f32⟩ : BufTy).Contents (Elt F) → (⟨S2048x16384, .f32⟩ : BufTy).Contents (Elt F)) main_v18 main_v25
  let main_v45 : (⟨S1x16384, .f32⟩ : BufTy).Contents (Elt F) := (broadcastInDim S1x16384 ![1] bcast_S16384_S1x16384_1 : (⟨S16384, .f32⟩ : BufTy).Contents (Elt F) → (⟨S1x16384, .f32⟩ : BufTy).Contents (Elt F)) main_v43
  let main_v46 : (⟨S2048x16384, .f32⟩ : BufTy).Contents (Elt F) := (broadcastInDim S2048x16384 ![0, 1] bcast_S1x16384_S2048x16384_0_1 : (⟨S1x16384, .f32⟩ : BufTy).Contents (Elt F) → (⟨S2048x16384, .f32⟩ : BufTy).Contents (Elt F)) main_v45
  let main_v47 : (⟨S2048x16384, .f32⟩ : BufTy).Contents (Elt F) := (mulf : (⟨S2048x16384, .f32⟩ : BufTy).Contents (Elt F) → (⟨S2048x16384, .f32⟩ : BufTy).Contents (Elt F) → (⟨S2048x16384, .f32⟩ : BufTy).Contents (Elt F)) main_v46 main_v44
  let main_v48 : (⟨S2048x16384, .f32⟩ : BufTy).Contents (Elt F) := (addf : (⟨S2048x16384, .f32⟩ : BufTy).Contents (Elt F) → (⟨S2048x16384, .f32⟩ : BufTy).Contents (Elt F) → (⟨S2048x16384, .f32⟩ : BufTy).Contents (Elt F)) main_v41 main_v47
  main_v48

end Cert.ReferenceIdeal.RefTerm

end
-- ==== Proof.CoefEq.lean ====
/-
  The kernel's program and the reference compute the polynomial coefficients by the same chain of operations
  on the weights (row maximum, subtract, exponential, row sum, divide, product with the same literal 16 × 4 table):
  the two chains are one function, whatever the float instance, so neither side's softmax is ever opened.
-/
import proofs.«400150_j57509612094159_1_alg».proof.Proof.KHost
import proofs.«400150_j57509612094159_1_alg».proof.Proof.RefTerm

noncomputable section

namespace Cert.LogicLayer

open Idealize.ShloMosaic

variable {F : FTy → Type} [FloatOps F]

/-- The two programs' literal coefficient tables hold the same 64 words. -/
theorem lit0_eq : Cert.KernelIdeal.lit0 = Cert.ReferenceIdeal.lit0 := by
  -- two functions on a 64-element index set agree when they agree at each of the 64 positions
  funext i
  fin_cases i <;> rfl

/-- The kernel program's coefficient chain is the reference's. -/
theorem kcoef_eq_coef (w : (⟨⟨2, ![16384, 16]⟩, .f32⟩ : BufTy).Contents (Elt F)) :
    Cert.KernelIdeal.KHost.kcoef w = Cert.ReferenceIdeal.RefTerm.coef w := by
  -- both sides are the same sequence of sixteen operations applied to `w`; the shapes are the same literals,
  -- the shape facts are propositions, and the one datum that differs by name, the literal table, is equal by
  -- `lit0_eq`; after that the two terms agree operation by operation and argument by argument
  unfold Cert.KernelIdeal.KHost.kcoef Cert.ReferenceIdeal.RefTerm.coef
  rw [lit0_eq]
  rfl

end Cert.LogicLayer

end
-- ==== Proof.RefRun.lean ====
/-
  The reference program run: its @main is the sequence of its 57 host operations, every weakly fair execution of
  which ends with the result buffer at the operations' composed term of the four argument arrays — the coefficient
  chain `coef` of the weights fed to the gather-and-polynomial `tail` — and with the arguments unchanged.
-/
import proofs.«400150_j57509612094159_1_alg».proof.Proof.RefTerm
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 57 operations, in order. -/
abbrev ops : List (HloOp τ sig (Elt F)) :=
  [ nullary main_cst (fun i => FloatOps.ofBits .f32 (lit0 (S16x4.rowMajor i))),
    nullary main_cst_0 (constant S_ .f32 0xFF800000#32),
    binary main_arg3 main_cst_0 main_v0 ((fun x v => Host.reduce FloatOps.maximumf x v reducesTo_S16384x16_S16384_d1 h_S_) : (⟨S16384x16, .f32⟩ : BufTy).Contents (Elt F) → (⟨S_, .f32⟩ : BufTy).Contents (Elt F) → (⟨S16384, .f32⟩ : BufTy).Contents (Elt F)),
    nullary main_cst_1 (constant S_ .f32 0xFF800000#32),
    unary main_cst_1 main_v1 (broadcastInDim S16384 ![] bcast_S_S16384 : (⟨S_, .f32⟩ : BufTy).Contents (Elt F) → (⟨S16384, .f32⟩ : BufTy).Contents (Elt F)),
    binary main_v1 main_v0 main_v2 (maximumf : (⟨S16384, .f32⟩ : BufTy).Contents (Elt F) → (⟨S16384, .f32⟩ : BufTy).Contents (Elt F) → (⟨S16384, .f32⟩ : BufTy).Contents (Elt F)),
    unary main_v2 main_v3 (broadcastInDim S16384x1 ![0] bcast_S16384_S16384x1_0 : (⟨S16384, .f32⟩ : BufTy).Contents (Elt F) → (⟨S16384x1, .f32⟩ : BufTy).Contents (Elt F)),
    unary main_v3 main_v4 (broadcastInDim S16384x16 ![0, 1] bcast_S16384x1_S16384x16_0_1 : (⟨S16384x1, .f32⟩ : BufTy).Contents (Elt F) → (⟨S16384x16, .f32⟩ : BufTy).Contents (Elt F)),
    binary main_arg3 main_v4 main_v5 (subf : (⟨S16384x16, .f32⟩ : BufTy).Contents (Elt F) → (⟨S16384x16, .f32⟩ : BufTy).Contents (Elt F) → (⟨S16384x16, .f32⟩ : BufTy).Contents (Elt F)),
    unary main_v5 main_v6 (Host.exp : (⟨S16384x16, .f32⟩ : BufTy).Contents (Elt F) → (⟨S16384x16, .f32⟩ : BufTy).Contents (Elt F)),
    nullary main_cst_2 (constant S_ .f32 0x00000000#32),
    binary main_v6 main_cst_2 main_v7 ((fun x v => Host.reduceAdd x v reducesTo_S16384x16_S16384_d1 h_S_) : (⟨S16384x16, .f32⟩ : BufTy).Contents (Elt F) → (⟨S_, .f32⟩ : BufTy).Contents (Elt F) → (⟨S16384, .f32⟩ : BufTy).Contents (Elt F)),
    unary main_v7 main_v8 (broadcastInDim S16384x1 ![0] bcast_S16384_S16384x1_0 : (⟨S16384, .f32⟩ : BufTy).Contents (Elt F) → (⟨S16384x1, .f32⟩ : BufTy).Contents (Elt F)),
    unary main_v8 main_v9 (broadcastInDim S16384x16 ![0, 1] bcast_S16384x1_S16384x16_0_1 : (⟨S16384x1, .f32⟩ : BufTy).Contents (Elt F) → (⟨S16384x16, .f32⟩ : BufTy).Contents (Elt F)),
    binary main_v6 main_v9 main_v10 (Host.divf : (⟨S16384x16, .f32⟩ : BufTy).Contents (Elt F) → (⟨S16384x16, .f32⟩ : BufTy).Contents (Elt F) → (⟨S16384x16, .f32⟩ : BufTy).Contents (Elt F)),
    binary main_v10 main_cst main_v11 ((fun l r => Host.dotGeneral dot_S16384x16_S16x4_S16384x4_1_0_0_1_n_n none l r) : (⟨S16384x16, .f32⟩ : BufTy).Contents (Elt F) → (⟨S16x4, .f32⟩ : BufTy).Contents (Elt F) → (⟨S16384x4, .f32⟩ : BufTy).Contents (Elt F)),
    nullary main_c (constantI S_ 32 0#32),
    unary main_c main_v12 (broadcastInDim S16384 ![] bcast_S_S16384 : (⟨S_, .i32⟩ : BufTy).Contents (Elt F) → (⟨S16384, .i32⟩ : BufTy).Contents (Elt F)),
    binary main_arg1 main_v12 main_v13 (cmpi .slt : (⟨S16384, .i32⟩ : BufTy).Contents (Elt F) → (⟨S16384, .i32⟩ : BufTy).Contents (Elt F) → (⟨S16384, .i1⟩ : BufTy).Contents (Elt F)),
    nullary main_c_3 (constantI S_ 32 16384#32),
    unary main_c_3 main_v14 (broadcastInDim S16384 ![] bcast_S_S16384 : (⟨S_, .i32⟩ : BufTy).Contents (Elt F) → (⟨S16384, .i32⟩ : BufTy).Contents (Elt F)),
    binary main_arg1 main_v14 main_v15 (addi : (⟨S16384, .i32⟩ : BufTy).Contents (Elt F) → (⟨S16384, .i32⟩ : BufTy).Contents (Elt F) → (⟨S16384, .i32⟩ : BufTy).Contents (Elt F)),
    ternary main_v13 main_v15 main_arg1 main_v16 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v16 main_v17 (broadcastInDim S16384x1 ![0] bcast_S16384_S16384x1_0 : (⟨S16384, .i32⟩ : BufTy).Contents (Elt F) → (⟨S16384x1, .i32⟩ : BufTy).Contents (Elt F)),
    binary main_arg0 main_v17 main_v18 ((fun x i => Host.gather gather_S2048x16384_S16384x1_S2048x16384_0_1_n_n_1_1_20481 x i) : (⟨S2048x16384, .f32⟩ : BufTy).Contents (Elt F) → (⟨S16384x1, .i32⟩ : BufTy).Contents (Elt F) → (⟨S2048x16384, .f32⟩ : BufTy).Contents (Elt F)),
    nullary main_c_4 (constantI S_ 32 0#32),
    unary main_c_4 main_v19 (broadcastInDim S16384 ![] bcast_S_S16384 : (⟨S_, .i32⟩ : BufTy).Contents (Elt F) → (⟨S16384, .i32⟩ : BufTy).Contents (Elt F)),
    binary main_arg2 main_v19 main_v20 (cmpi .slt : (⟨S16384, .i32⟩ : BufTy).Contents (Elt F) → (⟨S16384, .i32⟩ : BufTy).Contents (Elt F) → (⟨S16384, .i1⟩ : BufTy).Contents (Elt F)),
    nullary main_c_5 (constantI S_ 32 16384#32),
    unary main_c_5 main_v21 (broadcastInDim S16384 ![] bcast_S_S16384 : (⟨S_, .i32⟩ : BufTy).Contents (Elt F) → (⟨S16384, .i32⟩ : BufTy).Contents (Elt F)),
    binary main_arg2 main_v21 main_v22 (addi : (⟨S16384, .i32⟩ : BufTy).Contents (Elt F) → (⟨S16384, .i32⟩ : BufTy).Contents (Elt F) → (⟨S16384, .i32⟩ : BufTy).Contents (Elt F)),
    ternary main_v20 main_v22 main_arg2 main_v23 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v23 main_v24 (broadcastInDim S16384x1 ![0] bcast_S16384_S16384x1_0 : (⟨S16384, .i32⟩ : BufTy).Contents (Elt F) → (⟨S16384x1, .i32⟩ : BufTy).Contents (Elt F)),
    binary main_arg0 main_v24 main_v25 ((fun x i => Host.gather gather_S2048x16384_S16384x1_S2048x16384_0_1_n_n_1_1_20481 x i) : (⟨S2048x16384, .f32⟩ : BufTy).Contents (Elt F) → (⟨S16384x1, .i32⟩ : BufTy).Contents (Elt F) → (⟨S2048x16384, .f32⟩ : BufTy).Contents (Elt F)),
    unary main_v11 main_v26 ((extractStridedSlice S16384x1 ![0, 0] · slices_S16384x4_S16384x1_0_0) : (⟨S16384x4, .f32⟩ : BufTy).Contents (Elt F) → (⟨S16384x1, .f32⟩ : BufTy).Contents (Elt F)),
    reshape main_v26 main_v27 rfl shapeCasts_S16384x1_S16384,
    unary main_v11 main_v28 ((extractStridedSlice S16384x1 ![0, 1] · slices_S16384x4_S16384x1_0_1) : (⟨S16384x4, .f32⟩ : BufTy).Contents (Elt F) → (⟨S16384x1, .f32⟩ : BufTy).Contents (Elt F)),
    reshape main_v28 main_v29 rfl shapeCasts_S16384x1_S16384,
    unary main_v29 main_v30 (broadcastInDim S1x16384 ![1] bcast_S16384_S1x16384_1 : (⟨S16384, .f32⟩ : BufTy).Contents (Elt F) → (⟨S1x16384, .f32⟩ : BufTy).Contents (Elt F)),
    unary main_v30 main_v31 (broadcastInDim S2048x16384 ![0, 1] bcast_S1x16384_S2048x16384_0_1 : (⟨S1x16384, .f32⟩ : BufTy).Contents (Elt F) → (⟨S2048x16384, .f32⟩ : BufTy).Contents (Elt F)),
    binary main_v31 main_v18 main_v32 (mulf : (⟨S2048x16384, .f32⟩ : BufTy).Contents (Elt F) → (⟨S2048x16384, .f32⟩ : BufTy).Contents (Elt F) → (⟨S2048x16384, .f32⟩ : BufTy).Contents (Elt F)),
    unary main_v27 main_v33 (broadcastInDim S1x16384 ![1] bcast_S16384_S1x16384_1 : (⟨S16384, .f32⟩ : BufTy).Contents (Elt F) → (⟨S1x16384, .f32⟩ : BufTy).Contents (Elt F)),
    unary main_v33 main_v34 (broadcastInDim S2048x16384 ![0, 1] bcast_S1x16384_S2048x16384_0_1 : (⟨S1x16384, .f32⟩ : BufTy).Contents (Elt F) → (⟨S2048x16384, .f32⟩ : BufTy).Contents (Elt F)),
    binary main_v34 main_v32 main_v35 (addf : (⟨S2048x16384, .f32⟩ : BufTy).Contents (Elt F) → (⟨S2048x16384, .f32⟩ : BufTy).Contents (Elt F) → (⟨S2048x16384, .f32⟩ : BufTy).Contents (Elt F)),
    unary main_v11 main_v36 ((extractStridedSlice S16384x1 ![0, 2] · slices_S16384x4_S16384x1_0_2) : (⟨S16384x4, .f32⟩ : BufTy).Contents (Elt F) → (⟨S16384x1, .f32⟩ : BufTy).Contents (Elt F)),
    reshape main_v36 main_v37 rfl shapeCasts_S16384x1_S16384,
    unary main_v37 main_v38 (broadcastInDim S1x16384 ![1] bcast_S16384_S1x16384_1 : (⟨S16384, .f32⟩ : BufTy).Contents (Elt F) → (⟨S1x16384, .f32⟩ : BufTy).Contents (Elt F)),
    unary main_v38 main_v39 (broadcastInDim S2048x16384 ![0, 1] bcast_S1x16384_S2048x16384_0_1 : (⟨S1x16384, .f32⟩ : BufTy).Contents (Elt F) → (⟨S2048x16384, .f32⟩ : BufTy).Contents (Elt F)),
    binary main_v39 main_v25 main_v40 (mulf : (⟨S2048x16384, .f32⟩ : BufTy).Contents (Elt F) → (⟨S2048x16384, .f32⟩ : BufTy).Contents (Elt F) → (⟨S2048x16384, .f32⟩ : BufTy).Contents (Elt F)),
    binary main_v35 main_v40 main_v41 (addf : (⟨S2048x16384, .f32⟩ : BufTy).Contents (Elt F) → (⟨S2048x16384, .f32⟩ : BufTy).Contents (Elt F) → (⟨S2048x16384, .f32⟩ : BufTy).Contents (Elt F)),
    unary main_v11 main_v42 ((extractStridedSlice S16384x1 ![0, 3] · slices_S16384x4_S16384x1_0_3) : (⟨S16384x4, .f32⟩ : BufTy).Contents (Elt F) → (⟨S16384x1, .f32⟩ : BufTy).Contents (Elt F)),
    reshape main_v42 main_v43 rfl shapeCasts_S16384x1_S16384,
    binary main_v18 main_v25 main_v44 (mulf : (⟨S2048x16384, .f32⟩ : BufTy).Contents (Elt F) → (⟨S2048x16384, .f32⟩ : BufTy).Contents (Elt F) → (⟨S2048x16384, .f32⟩ : BufTy).Contents (Elt F)),
    unary main_v43 main_v45 (broadcastInDim S1x16384 ![1] bcast_S16384_S1x16384_1 : (⟨S16384, .f32⟩ : BufTy).Contents (Elt F) → (⟨S1x16384, .f32⟩ : BufTy).Contents (Elt F)),
    unary main_v45 main_v46 (broadcastInDim S2048x16384 ![0, 1] bcast_S1x16384_S2048x16384_0_1 : (⟨S1x16384, .f32⟩ : BufTy).Contents (Elt F) → (⟨S2048x16384, .f32⟩ : BufTy).Contents (Elt F)),
    binary main_v46 main_v44 main_v47 (mulf : (⟨S2048x16384, .f32⟩ : BufTy).Contents (Elt F) → (⟨S2048x16384, .f32⟩ : BufTy).Contents (Elt F) → (⟨S2048x16384, .f32⟩ : BufTy).Contents (Elt F)),
    binary main_v41 main_v47 main_v48 (addf : (⟨S2048x16384, .f32⟩ : BufTy).Contents (Elt F) → (⟨S2048x16384, .f32⟩ : BufTy).Contents (Elt F) → (⟨S2048x16384, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., unary_bufs_sub .., reshape_bufs_sub .., unary_bufs_sub .., unary_bufs_sub .., binary_bufs_sub .., unary_bufs_sub .., unary_bufs_sub .., binary_bufs_sub .., unary_bufs_sub .., reshape_bufs_sub .., unary_bufs_sub .., unary_bufs_sub .., binary_bufs_sub .., binary_bufs_sub .., unary_bufs_sub .., reshape_bufs_sub .., binary_bufs_sub .., unary_bufs_sub .., unary_bufs_sub .., binary_bufs_sub .., binary_bufs_sub ..⟩

set_option maxHeartbeats 4000000 in
/-- On every device, for any float values, from any memory with zero counters: every weakly fair execution of @main
    terminates with the result at `tail (coef weights) x idx_a idx_b` and the four arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v48) = RefTerm.tail (RefTerm.coef (m ((c.tc : Thread nD τ).loc main_arg3))) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v48).trans (by after_results_simp; rfl),
      (h c main_arg0).trans (by after_results_simp),
      (h c main_arg1).trans (by after_results_simp),
      (h c main_arg2).trans (by after_results_simp),
      (h c main_arg3).trans (by after_results_simp)⟩)
    (run_seq scopedRefs_eq scopedSems_eq defs main (fun _ => ops) main_eq (fun _ => ops_sub) m ρ)

end Cert.ReferenceIdeal.RefRun

end
-- ==== Proof.Spec.lean ====
/-
  What both programs compute, as one function of the four arrays.
  Output neuron `j` reads two columns of the input, `a = x[r, ia j]` and `b = x[r, ib j]`, and combines them by
  the polynomial `c₀ + c₁·a + c₂·b + c₃·(a·b)` whose four coefficients are row `j` of a [16384, 4] array `C`.
  Over the extended reals, with the sums and products associated as both programs write them:
  `((c₀ + c₁·a) + c₂·b) + c₃·(a·b)`.
  The kernel finds `a` as a sum over the whole row against a 0/1 column; `sum_onehot` is the one law that
  collapses such a sum to its single surviving term (it needs no finiteness: `x · 0 = 0` for every extended real).
-/
import Idealize.ShloMosaic.PureOps.Ideal
import Idealize.ShloMosaic.Lib.ValueIdx

noncomputable section

open scoped BigOperators

namespace Cert.LogicLayer

open Idealize.ShloMosaic Idealize.ShloMosaic.ValueIdx

/-- The column an index word selects: a word below the row length selects itself. -/
def col (w : BitVec 32) : Fin 16384 := ⟨w.toNat % 16384, Nat.mod_lt _ (by decide)⟩

theorem col_val_of_lt {w : BitVec 32} (h : w.toNat < 16384) : (col w).val = w.toNat := Nat.mod_eq_of_lt h

/-- One entry of the result: row `r` of the batch, output neuron `j`. -/
def outAt (C : (⟨2, ![16384, 4]⟩ : Shape).Idx → EReal) (x : (⟨2, ![2048, 16384]⟩ : Shape).Idx → EReal)
    (ia ib : (⟨1, ![16384]⟩ : Shape).Idx → BitVec 32) (r : Fin 2048) (j : Fin 16384) : EReal :=
  C (ix2 j (0 : Fin 4)) + C (ix2 j (1 : Fin 4)) * x (ix2 r (col (ia (ix1 j))))
    + C (ix2 j (2 : Fin 4)) * x (ix2 r (col (ib (ix1 j))))
    + C (ix2 j (3 : Fin 4)) * (x (ix2 r (col (ia (ix1 j)))) * x (ix2 r (col (ib (ix1 j)))))

/-- The whole result array. -/
def out (C : (⟨2, ![16384, 4]⟩ : Shape).Idx → EReal) (x : (⟨2, ![2048, 16384]⟩ : Shape).Idx → EReal)
    (ia ib : (⟨1, ![16384]⟩ : Shape).Idx → BitVec 32) : (⟨2, ![2048, 16384]⟩ : Shape).Idx → EReal :=
  fun i => outAt C x ia ib (i 0) (i 1)

theorem out_apply (C : (⟨2, ![16384, 4]⟩ : Shape).Idx → EReal) (x : (⟨2, ![2048, 16384]⟩ : Shape).Idx → EReal)
    (ia ib : (⟨1, ![16384]⟩ : Shape).Idx → BitVec 32) (r : Fin 2048) (j : Fin 16384) :
    out C x ia ib (ix2 r j) = outAt C x ia ib r j := rfl

/-- A sum of 512 terms each multiplied by the indicator of "position `k + off` is `n`" keeps the one term at
    `k = n - off` when `n` lies in the window `[off, off + 512)`, and is zero otherwise. -/
theorem sum_onehot (f : Fin 512 → EReal) (off n : ℕ) :
    ∑ k : Fin 512, f k * (if k.val + off = n then (1 : EReal) else 0)
      = if h : off ≤ n ∧ n < off + 512 then f ⟨n - off, by omega⟩ else 0 := by
  -- multiplying by an indicator keeps the term or replaces it by zero
  simp only [mul_ite, mul_one, mul_zero]
  split_ifs with h
  · -- inside the window exactly one position, `n - off`, meets the condition
    rw [Finset.sum_eq_single (⟨n - off, by omega⟩ : Fin 512)]
    · rw [if_pos]
      show n - off + off = n
      omega
    · intro b _ hb
      rw [if_neg]
      intro hc
      apply hb
      apply Fin.ext
      show b.val = n - off
      omega
    · intro hh
      exact absurd (Finset.mem_univ _) hh
  · -- outside the window no position meets it
    apply Finset.sum_eq_zero
    intro k _
    rw [if_neg]
    intro hc
    apply h
    have hk := k.isLt
    omega

/-- The running partial gather: after the windows `0 … k` the accumulated value is the selected entry once its
    position `n` has been passed, zero before. One step. -/
theorem partial_step (v : EReal) (k n : ℕ) (g : EReal) :
    (if n < k * 512 then v else 0) + (if k * 512 ≤ n ∧ n < k * 512 + 512 then g else 0)
      = if n < (k + 1) * 512 then (if n < k * 512 then v else g) else 0 := by
  -- the three comparisons leave three consistent cases; each is a sum with a zero
  split_ifs <;> first | (exfalso; omega) | simp only [add_zero, zero_add]

end Cert.LogicLayer

end
-- ==== Proof.RefValue.lean ====
/-
  The reference's gather-and-polynomial read at one entry (r, j), over the extended reals, for index words in range.
  An index word `w` with `0 ≤ w < 16384` is not shifted by the negative-index normalisation and is not clamped by the
  gather, so `x[:, idx]` reads column `w` itself; each coefficient column `C[:, s]` is sliced out, flattened and
  broadcast along the batch axis, so at (r, j) it is `C[j, s]`; the rest is pointwise arithmetic in the order
  `((c₀ + c₁·a) + c₂·b) + c₃·(a·b)`.
-/
import proofs.«400150_j57509612094159_1_alg».proof.Proof.RefTerm
import proofs.«400150_j57509612094159_1_alg».proof.Proof.Spec
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.RefValue

open Cert.ReferenceIdeal Cert.ReferenceIdeal.Gen Idealize.ShloMosaic Idealize.ShloMosaic.ValueIdx

section Reads
variable {α : Type}

/-- The dimension numbers of a column gather: operand [R, N], start indices an [n, 1] column, result [R, n];
    operand axis 0 is carried whole (an offset axis), operand axis 1 is collapsed and start-indexed. -/
private abbrev colsDims (R N n : Nat)
    (wf : GatherDims.WF ⟨2, ![R, N]⟩ ⟨2, ![n, 1]⟩ ⟨2, ![R, n]⟩ [0] [1] [] [1] [] 1 ![R, 1]) :
    GatherDims ⟨2, ![R, N]⟩ ⟨2, ![n, 1]⟩ ⟨2, ![R, n]⟩ where
  offsetDims := [0]
  collapsedSliceDims := [1]
  operandBatchingDims := []
  startIndicesBatchingDims := []
  startIndexMap := [1]
  indexVectorDim := 1
  sliceSizes := ![R, 1]
  wf := wf

/-- The column gather read at (r, j): the row r passes through on the offset axis, and the column is the start-index
    word at (j, 0), read as a signed integer and clamped into [0, N − 1]. -/
private theorem gather_cols_apply {R N n w : Nat} (hN : 0 < N)
    (wf : GatherDims.WF ⟨2, ![R, N]⟩ ⟨2, ![n, 1]⟩ ⟨2, ![R, n]⟩ [0] [1] [] [1] [] 1 ![R, 1])
    (x : (⟨2, ![R, N]⟩ : Shape).Idx → α) (idx : IVec ⟨2, ![n, 1]⟩ w) (r : Fin R) (j : Fin n) :
    Host.gather (colsDims R N n wf) x idx (ix2 r j)
      = x (ix2 r ⟨min (idx (ix2 j (0 : Fin 1))).toInt.toNat (N - 1), by omega⟩) := by
  unfold Host.gather
  congr 1
  funext a
  refine Fin.ext ?_
  match a with
  | ⟨0, _⟩ =>
    -- operand axis 0 is neither start-indexed nor batching: only the offset coordinate remains, and the result's one
    -- offset axis is its axis 0, whose coordinate is r
    show (colsDims R N n wf).start (ix2 r j) idx 0 + (colsDims R N n wf).batchCoord (ix2 r j) 0
      + (colsDims R N n wf).offCoord (ix2 r j) 0 = r.val
    have hst : (colsDims R N n wf).start (ix2 r j) idx 0 = 0 := by
      unfold GatherDims.start
      rw [dif_neg (show (0 : Fin 2) ∉ ([1] : List (Fin 2)) from by decide)]
    have hk : (0 : Fin 2) ∈ (colsDims R N n wf).sKept :=
      (GatherDims.mem_sKept _ _).mpr ⟨show (0 : Fin 2) ∉ ([1] : List (Fin 2)) from by decide, List.not_mem_nil⟩
    rw [hst, GatherDims.batchCoord_eq_zero _ _ _ List.not_mem_nil]
    unfold GatherDims.offCoord
    rw [dif_pos hk, Nat.zero_add]
    rfl
  | ⟨1, _⟩ =>
    -- operand axis 1 is collapsed (slice size 1, no offset coordinate): only the clamped start remains, read at the
    -- start-indices position whose batch coordinate is j and whose index-vector coordinate is 0
    show (colsDims R N n wf).start (ix2 r j) idx 1 + (colsDims R N n wf).batchCoord (ix2 r j) 1
      + (colsDims R N n wf).offCoord (ix2 r j) 1 = min (idx (ix2 j (0 : Fin 1))).toInt.toNat (N - 1)
    have hm : (1 : Fin 2) ∈ (colsDims R N n wf).startIndexMap := List.mem_singleton.mpr rfl
    have hnk : (1 : Fin 2) ∉ (colsDims R N n wf).sKept := fun h =>
      ((GatherDims.mem_sKept _ _).mp h).1 (List.mem_singleton.mpr rfl)
    rw [GatherDims.batchCoord_eq_zero _ _ _ List.not_mem_nil, GatherDims.offCoord_eq_zero _ _ _ hnk,
      Nat.add_zero]
    unfold GatherDims.start
    rw [dif_pos hm]
    have hat : (colsDims R N n wf).siIdx (ix2 r j)
        ⟨List.idxOf (1 : Fin 2) (colsDims R N n wf).startIndexMap, List.idxOf_lt_length_iff.2 hm⟩
          = ix2 j (0 : Fin 1) := by
      funext b
      refine Fin.ext ?_
      match b with
      | ⟨0, _⟩ => rfl
      | ⟨1, _⟩ => rfl
    rw [hat]
    rfl

/-- Column s of an [n, c] array, flattened and laid along the second axis of an [m, n] rectangle, at (r, j). -/
private theorem col_bcast_apply {n c m s : Nat} (hs : s < c) (C : (⟨2, ![n, c]⟩ : Shape).Idx → α)
    (hsl : (⟨2, ![n, c]⟩ : Shape).Slices ![0, s] ⟨2, ![n, 1]⟩)
    (hc : (⟨2, ![n, 1]⟩ : Shape).ShapeCasts ⟨1, ![n]⟩)
    (h₁ : (⟨1, ![n]⟩ : Shape).BroadcastsInDim ⟨2, ![1, n]⟩ ![1])
    (h₂ : (⟨2, ![1, n]⟩ : Shape).BroadcastsInDim ⟨2, ![m, n]⟩ ![0, 1])
    (r : Fin m) (j : Fin n) :
    broadcastInDim ⟨2, ![m, n]⟩ ![0, 1] h₂ (broadcastInDim ⟨2, ![1, n]⟩ ![1] h₁
      (shapeCast ⟨1, ![n]⟩ (extractStridedSlice ⟨2, ![n, 1]⟩ ![0, s] C hsl) hc)) (ix2 r j) = C (ix2 j ⟨s, hs⟩) := by
  -- the two broadcasts keep the column coordinate j; the flattening [n, 1] → [n] matches j with (j, 0), both at
  -- row-major position j; the slice shifts the second coordinate by s
  refine (StableHlo.Predicate.bcast_cols h₁ h₂ _ r j).trans ?_
  refine (shapeCast_apply _ hc _ (ix2 j (0 : Fin 1)) ?_).trans ?_
  · rw [Shape.rowMajor_val_two, Shape.rowMajor_val_one]
    show j.val * 1 + 0 = j.val
    omega
  · exact slice2_axis1_apply s C hsl j (0 : Fin 1) ⟨s, hs⟩ (by simp)

/-- A vector kept as an [n, 1] column reads, at (p, 0), the vector at p. -/
private theorem col1_apply {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  refine broadcastInDim_apply _ h v _ _ fun a => ?_
  match a with
  | ⟨0, _⟩ =>
    show p.val = if n = 1 then 0 else p.val
    split
    · have := p.isLt; omega
    · rfl

end Reads

/-- The negative-index shift leaves a word below the row length alone: it is not below zero as a signed word. -/
private theorem norm_word (w : BitVec 32) (hw : w.toNat < 16384) :
    Scalar.select (IntOp.cmpi .slt w 0#32) (IntOp.addi w 16384#32) w = w := by
  have hn : ¬ IntOp.cmpi .slt w 0#32 = 1#1 := by
    rw [StableHlo.Predicate.slt_iff_toNat (by omega) (by decide)]
    exact Nat.not_lt_zero _
  rw [eq_zero_of_ne_one hn, select_zero]

/-- The shifted index vector kept as a column reads, at (j, 0), the index word itself when that word is in range. -/
private theorem norm_col_apply (iv : IVec S16384 32) (j : Fin 16384) (hv : (iv (ix1 j)).toNat < 16384) :
    broadcastInDim S16384x1 ![0] bcast_S16384_S16384x1_0
        (select (cmpi .slt iv (broadcastInDim S16384 ![] bcast_S_S16384 (constantI S_ 32 0#32)))
          (addi iv (broadcastInDim S16384 ![] bcast_S_S16384 (constantI S_ 32 16384#32))) iv) (ix2 j (0 : Fin 1))
      = iv (ix1 j) := by
  refine (col1_apply _ _ j).trans ?_
  exact norm_word (iv (ix1 j)) hv

/-- The column gather at (r, j): with the start index in range, neither the signed reading nor the clamp changes it. -/
private theorem gather_in_range {α : Type} (x : S2048x16384.Idx → α) (idx : IVec S16384x1 32) (r : Fin 2048) (j : Fin 16384)
    (w : BitVec 32) (hidx : idx (ix2 j (0 : Fin 1)) = w) (hw : w.toNat < 16384) :
    Host.gather gather_S2048x16384_S16384x1_S2048x16384_0_1_n_n_1_1_20481 x idx (ix2 r j)
      = x (ix2 r (LogicLayer.col w)) := by
  refine (gather_cols_apply (R := 2048) (N := 16384) (n := 16384) (by decide)
    gather_S2048x16384_S16384x1_S2048x16384_0_1_n_n_1_1_20481_wf x idx r j).trans ?_
  subst hidx
  -- a word below 16384 reads the same signed and unsigned, and the minimum with 16383 is the word
  congr 2
  refine Fin.ext ?_
  rw [LogicLayer.col_val_of_lt hw]
  show min (idx (ix2 j (0 : Fin 1))).toInt.toNat (16384 - 1) = (idx (ix2 j (0 : Fin 1))).toNat
  rw [StableHlo.Predicate.toInt_eq_toNat_of_lt (by omega), Int.toNat_natCast]
  omega

/-- With both index vectors in range the reference's tail is the specification's function of the same arrays. -/
theorem tail_eq (C : (⟨S16384x4, .f32⟩ : BufTy).Contents (Elt Ideal)) (x : (⟨S2048x16384, .f32⟩ : BufTy).Contents (Elt Ideal))
    (ia ib : (⟨S16384, .i32⟩ : BufTy).Contents (Elt Ideal))
    (ha : ∀ j : Fin 16384, (ia (ix1 j)).toNat < 16384) (hb : ∀ j : Fin 16384, (ib (ix1 j)).toNat < 16384) :
    RefTerm.tail (F := Ideal) C x ia ib = Cert.LogicLayer.out C x ia ib := by
  funext i
  obtain ⟨r, j, rfl⟩ : ∃ (r : Fin 2048) (j : Fin 16384), i = ix2 r j := ⟨i 0, i 1, eq_ix2 i⟩
  -- the four coefficient columns at (r, j) …
  have e0 := col_bcast_apply (s := 0) (by decide) C slices_S16384x4_S16384x1_0_0 shapeCasts_S16384x1_S16384
    bcast_S16384_S1x16384_1 bcast_S1x16384_S2048x16384_0_1 r j
  have e1 := col_bcast_apply (s := 1) (by decide) C slices_S16384x4_S16384x1_0_1 shapeCasts_S16384x1_S16384
    bcast_S16384_S1x16384_1 bcast_S1x16384_S2048x16384_0_1 r j
  have e2 := col_bcast_apply (s := 2) (by decide) C slices_S16384x4_S16384x1_0_2 shapeCasts_S16384x1_S16384
    bcast_S16384_S1x16384_1 bcast_S1x16384_S2048x16384_0_1 r j
  have e3 := col_bcast_apply (s := 3) (by decide) C slices_S16384x4_S16384x1_0_3 shapeCasts_S16384x1_S16384
    bcast_S16384_S1x16384_1 bcast_S1x16384_S2048x16384_0_1 r j
  -- … and the two gathered columns
  have eA := gather_in_range x _ r j _ (norm_col_apply ia j (ha j)) (ha j)
  have eB := gather_in_range x _ r j _ (norm_col_apply ib j (hb j)) (hb j)
  -- the sums and products are pointwise: at (r, j) they are the sums and products of the six reads
  unfold RefTerm.tail
  dsimp only
  rw [LogicLayer.out_apply]
  unfold LogicLayer.outAt
  simp only [addf_apply, mulf_apply]
  rw [e0, e1, e2, e3, eA, eB]
  rfl

end Cert.ReferenceIdeal.RefValue

end
-- ==== Proof.KPieces.lean ====
/-
  What each control case of the kernel body leaves in the two accumulators and in the output block, as the
  body's own arithmetic (its payload terms) of the blocks it loaded — for any float instance.
  At the first point of a reduction run (k = 0) the accumulators are reset to zero and then receive the first
  partial product, so what they end with is the accumulate step applied to the zero splat; at every other point
  it is the accumulate step applied to what the point before left; at the last point (k = 31) the output block
  is the polynomial of the two finished accumulators and the coefficient block.
-/
import proofs.«400150_j57509612094159_1_alg».proof.Proof.Gen.KernelIdeal.Frame
import Idealize.ShloMosaic.Lib.Pipeline.Value

set_option maxRecDepth 16384

noncomputable section

namespace Cert.KernelIdeal.KPieces

open Cert.KernelIdeal Cert.KernelIdeal.Gen Idealize.ShloMosaic Idealize.ShloMosaic.TcCoe Idealize.ShloMosaic.Tactic

variable {F : FTy → Type} [FloatOps F]

/-- The offset pair (0, 0) is the constant-zero offset: every store and load of the body goes through the
    rectangle that starts at the origin and spans its whole block. -/
private theorem hz : (![0, 0] : Fin 2 → Nat) = fun _ => 0 := funext fun a => by fin_cases a <;> rfl

theorem sout0_A_0_eq (c : Dev nD) (i : grid0.Coords) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S4x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x512 .f32) (x1 : Vec F S1x512 .i32) (x2 : Vec F S1x512 .i32) (x3 : Vec F S4x512 .f32) :
    sout0_A_0 c i arg3 harg3 arg4 harg4 arg5 harg5 arg6 harg6 arg7 harg7 arg8 harg8 arg9 harg9 hc0 hc1 x0 x1 x2 x3 = k0_pay6 i x1 x0 (k0_pay2 (F := F)) := by
  -- two whole-block stores: the later one decides the contents; its accumulator operand is a whole-block load of
  -- what the earlier store (the zero splat) left, and every other operand is a whole-block load of an input block
  unfold sout0_A_0
  rw [View.read_writes_eq_canon _ _ _ (scover0_A_0 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread,
    harg8.read_unread, harg9.read_unread, View.ld_unit_zero (S := S512x512) hz, View.ld_unit_zero (S := S1x512) hz,
    View.ld_unit_zero (S := S4x512) hz]

theorem sout0_A_1_eq (c : Dev nD) (i : grid0.Coords) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S4x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : cond0_0 i) (hc1 : ¬cond0_1 i)
    (x0 : Vec F S512x512 .f32) (x1 : Vec F S1x512 .i32) (x2 : Vec F S1x512 .i32) (x3 : Vec F S4x512 .f32) :
    sout0_A_1 c i arg3 harg3 arg4 harg4 arg5 harg5 arg6 harg6 arg7 harg7 arg8 harg8 arg9 harg9 hc0 hc1 x0 x1 x2 x3 = k0_pay7 i x2 x0 (k0_pay3 (F := F)) := by
  -- the same for the second accumulator: the zero splat is stored, read back whole, and the accumulate step stored over it
  unfold sout0_A_1
  rw [View.read_writes_eq_canon _ _ _ (scover0_A_1 c i arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread,
    harg8.read_unread, harg9.read_unread, View.ld_unit_zero (S := S512x512) hz, View.ld_unit_zero (S := S1x512) hz,
    View.ld_unit_zero (S := S4x512) hz]

theorem sout0_B_0_eq (c : Dev nD) (i : grid0.Coords) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S4x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x512 .f32) (x1 : Vec F S1x512 .i32) (x2 : Vec F S1x512 .i32) (x3 : Vec F S4x512 .f32) (xs0 : Vec F S512x512 .f32) (xs1 : Vec F S512x512 .f32) :
    sout0_B_0 c i arg3 harg3 arg4 harg4 arg5 harg5 arg6 harg6 arg7 harg7 arg8 harg8 arg9 harg9 hc0 hc1 x0 x1 x2 x3 xs0 xs1 = k0_pay6 i x1 x0 xs0 := by
  -- one whole-block store; each operand of its payload is a whole-block load, so it reads the block's contents
  unfold sout0_B_0
  rw [View.read_writes_eq_canon _ _ _ (scover0_B_0 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg4.read_unread, harg5.read_unread, harg6.read_unread,
    harg8.read_unread, harg9.read_unread, View.ld_unit_zero (S := S512x512) hz, View.ld_unit_zero (S := S1x512) hz,
    View.ld_unit_zero (S := S4x512) hz]

theorem sout0_B_1_eq (c : Dev nD) (i : grid0.Coords) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S4x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : ¬cond0_1 i)
    (x0 : Vec F S512x512 .f32) (x1 : Vec F S1x512 .i32) (x2 : Vec F S1x512 .i32) (x3 : Vec F S4x512 .f32) (xs0 : Vec F S512x512 .f32) (xs1 : Vec F S512x512 .f32) :
    sout0_B_1 c i arg3 harg3 arg4 harg4 arg5 harg5 arg6 harg6 arg7 harg7 arg8 harg8 arg9 harg9 hc0 hc1 x0 x1 x2 x3 xs0 xs1 = k0_pay7 i x2 x0 xs1 := by
  -- one whole-block store over the second accumulator, its operands whole-block loads
  unfold sout0_B_1
  rw [View.read_writes_eq_canon _ _ _ (scover0_B_1 c i arg3 harg3 arg4 harg4 arg5 harg5 arg6 harg6 arg7 harg7 arg8 harg8 arg9 harg9 hc0 hc1 x0 x1 x2 x3 xs0 xs1)]
  unfold kernelRun0_B
  dsimp only
  sl_unfold_words
  rw [View.canon_unit_zero hz]
  simp only [View.readAt_eq_ld, harg3.read_unread, harg4.read_unread, harg5.read_unread, harg6.read_unread,
    harg8.read_unread, harg9.read_unread, View.ld_unit_zero (S := S512x512) hz, View.ld_unit_zero (S := S1x512) hz,
    View.ld_unit_zero (S := S4x512) hz]

theorem sout0_C_0_eq (c : Dev nD) (i : grid0.Coords) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S4x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x512 .f32) (x1 : Vec F S1x512 .i32) (x2 : Vec F S1x512 .i32) (x3 : Vec F S4x512 .f32) (xs0 : Vec F S512x512 .f32) (xs1 : Vec F S512x512 .f32) :
    sout0_C_0 c i arg3 harg3 arg4 harg4 arg5 harg5 arg6 harg6 arg7 harg7 arg8 harg8 arg9 harg9 hc0 hc1 x0 x1 x2 x3 xs0 xs1 = k0_pay6 i x1 x0 xs0 := by
  -- at the last point the accumulate step is the same single whole-block store
  unfold sout0_C_0
  rw [View.read_writes_eq_canon _ _ _ (scover0_C_0 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread,
    harg8.read_unread, harg9.read_unread, View.ld_unit_zero (S := S512x512) hz, View.ld_unit_zero (S := S1x512) hz,
    View.ld_unit_zero (S := S4x512) hz]

theorem sout0_C_1_eq (c : Dev nD) (i : grid0.Coords) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S4x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x512 .f32) (x1 : Vec F S1x512 .i32) (x2 : Vec F S1x512 .i32) (x3 : Vec F S4x512 .f32) (xs0 : Vec F S512x512 .f32) (xs1 : Vec F S512x512 .f32) :
    sout0_C_1 c i arg3 harg3 arg4 harg4 arg5 harg5 arg6 harg6 arg7 harg7 arg8 harg8 arg9 harg9 hc0 hc1 x0 x1 x2 x3 xs0 xs1 = k0_pay7 i x2 x0 xs1 := by
  -- likewise for the second accumulator at the last point
  unfold sout0_C_1
  rw [View.read_writes_eq_canon _ _ _ (scover0_C_1 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread,
    harg8.read_unread, harg9.read_unread, View.ld_unit_zero (S := S512x512) hz, View.ld_unit_zero (S := S1x512) hz,
    View.ld_unit_zero (S := S4x512) hz]

theorem out0_C_4_eq (c : Dev nD) (i : grid0.Coords) (arg3 : Memref sig .tc .vmem S512x512 .f32) (harg3 : arg3.IsWhole) (arg4 : Memref sig .tc .vmem S1x512 .i32) (harg4 : arg4.IsWhole) (arg5 : Memref sig .tc .vmem S1x512 .i32) (harg5 : arg5.IsWhole) (arg6 : Memref sig .tc .vmem S4x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .f32) (harg9 : arg9.IsWhole) (hc0 : ¬cond0_0 i) (hc1 : cond0_1 i)
    (x0 : Vec F S512x512 .f32) (x1 : Vec F S1x512 .i32) (x2 : Vec F S1x512 .i32) (x3 : Vec F S4x512 .f32) (xs0 : Vec F S512x512 .f32) (xs1 : Vec F S512x512 .f32) :
    out0_C_4 c i arg3 harg3 arg4 harg4 arg5 harg5 arg6 harg6 arg7 harg7 arg8 harg8 arg9 harg9 hc0 hc1 x0 x1 x2 x3 xs0 xs1 = k0_pay1 (k0_pay6 i x1 x0 xs0) (k0_pay7 i x2 x0 xs1) x3 := by
  -- one whole-block store into the output; its two accumulator operands are whole-block loads taken AFTER the
  -- accumulate stores of the same point, so each reads back that store's payload; the coefficient operand is a
  -- whole-block load of its input block
  unfold out0_C_4
  rw [View.read_writes_eq_canon _ _ _ (cover0_C_4 c i arg3 harg3 arg4 harg4 arg5 harg5 arg6 harg6 arg7 harg7 arg8 harg8 arg9 harg9 hc0 hc1 x0 x1 x2 x3 xs0 xs1)]
  unfold kernelRun0_C
  dsimp only
  sl_unfold_words
  rw [View.canon_unit_zero hz]
  simp only [View.readAt_eq_ld, harg3.read_unread, harg4.read_unread, harg5.read_unread, harg6.read_unread,
    harg8.read_unread, harg9.read_unread, View.readCov_unit_zero (S := S512x512) _ hz,
    View.ld_unit_zero (S := S512x512) hz, View.ld_unit_zero (S := S1x512) hz, View.ld_unit_zero (S := S4x512) hz]

end Cert.KernelIdeal.KPieces

end
-- ==== Proof.KStep.lean ====
/-
  The kernel body's arithmetic read at one entry, over the extended reals.
  The accumulate step adds to the old accumulator the product of the loaded 512 × 512 block of `x` with a 0/1
  matrix whose entry (kk, q) is 1 exactly when row position `kk + 512·k` equals the index word of column `q`:
  the sum over `kk` keeps the single entry of the block at column `idx - 512·k` when the index falls in this
  window, and is zero otherwise (format changes are the identity here, and the integer 0 / 1 convert to the reals 0 / 1).
  The final step is the polynomial `c₀ + c₁·a + c₂·b + c₃·(a·b)` with each coefficient row broadcast down the block.
-/
import proofs.«400150_j57509612094159_1_alg».proof.Proof.Gen.KernelIdeal.Skeleton
import proofs.«400150_j57509612094159_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

open scoped BigOperators

namespace Cert.KernelIdeal.KStep

open Cert.KernelIdeal Cert.KernelIdeal.Gen Idealize.ShloMosaic Idealize.ShloMosaic.ValueIdx

open Idealize.ShloMosaic.StableHlo.Predicate

/-- The dimension numbers of the block product: rows × contraction times contraction × columns. -/
private abbrev D := dot_S512x512_S512x512_S512x512_1_0_0_1_n_n

/-- The contraction's index set is Fin 512. -/
private abbrev cE : D.contr.Idx ≃ Fin 512 := contrEquiv1 D 512 rfl rfl

private theorem lhs_ax0 (j : S512x512.Idx) (k : D.contr.Idx) : (D.lhsIdx j k 0 : ℕ) = j 0 := by
  simp [DotDims.lhsIdx, D, dot_S512x512_S512x512_S512x512_1_0_0_1_n_n]; rfl
private theorem lhs_ax1 (j : S512x512.Idx) (c : Fin 512) : (D.lhsIdx j (cE.symm c) 1 : ℕ) = c := by
  refine (D.lhsIdx_val_of_single (cl := 1) rfl j (cE.symm c)).trans ?_
  exact contrEquiv1_symm_val D 512 rfl rfl c
private theorem rhs_ax0 (j : S512x512.Idx) (c : Fin 512) : (D.rhsIdx j (cE.symm c) 0 : ℕ) = c := by
  refine (D.rhsIdx_val_of_single (cr := 0) rfl j (cE.symm c)).trans ?_
  exact contrEquiv1_symm_val D 512 rfl rfl c
private theorem rhs_ax1 (j : S512x512.Idx) (k : D.contr.Idx) : (D.rhsIdx j k 1 : ℕ) = j 1 := by
  simp [DotDims.rhsIdx, D, dot_S512x512_S512x512_S512x512_1_0_0_1_n_n]; rfl

private theorem lhs_at (r q c : Fin 512) : D.lhsIdx (ix2 r q) (cE.symm c) = ix2 r c :=
  Shape.idx_ext₂ (lhs_ax0 _ _) (lhs_ax1 _ _)
private theorem rhs_at (r q c : Fin 512) : D.rhsIdx (ix2 r q) (cE.symm c) = ix2 c q :=
  Shape.idx_ext₂ (rhs_ax0 _ _) (rhs_ax1 _ _)

/-- The row-position word: entry (c, q) of the iota along the rows plus the splat of 512·k is the word of c + 512·k. -/
private theorem pay4_apply (i : grid0.Coords) (c q : Fin 512) :
    k0_pay4 i (ix2 c q) = BitVec.ofNat 32 (c.val + (i 2).val * 512) := by
  unfold k0_pay4
  show IntOp.addi (iota .tc S512x512 32 [0] iota_S512x512_d0_w32 (ix2 c q)) (IntOp.muli (BitVec.ofNat 32 (i 2).val) 512#32) = _
  rw [iota_single_apply]
  show BitVec.ofNat 32 c.val + BitVec.ofNat 32 (i 2).val * BitVec.ofNat 32 512 = _
  rw [BitVec.ofNat_add, BitVec.ofNat_mul]

/-- A compare-equal bit, widened to a word and converted signed, is the real 1 where the words agree and 0 elsewhere;
    a number below 2³² agrees as a word with w exactly when it is w's value. -/
private theorem onehot_word (m : ℕ) (hm : m < 2 ^ 32) (w : BitVec 32) :
    (FloatOps.sitofp (F := Ideal) .f32 ((IntOp.cmpi .eq (BitVec.ofNat 32 m) w).setWidth 32) : EReal)
      = if m = w.toNat then (1 : EReal) else 0 := by
  show ((((IntOp.cmpi .eq (BitVec.ofNat 32 m) w).setWidth 32).toInt : ℝ) : EReal) = _
  by_cases h : BitVec.ofNat 32 m = w
  · have hm' : m = w.toNat := by rw [← h, BitVec.toNat_ofNat]; exact (Nat.mod_eq_of_lt hm).symm
    rw [cmpi_eq_iff.mpr h, if_pos hm']
    show ((((1#32 : BitVec 32)).toInt : ℝ) : EReal) = 1
    norm_num
  · have hm' : ¬ m = w.toNat := fun e => h (by rw [e, BitVec.ofNat_toNat, BitVec.setWidth_eq])
    rw [eq_zero_of_ne_one (fun e => h (cmpi_eq_iff.mp e)), if_neg hm']
    show ((((0#32 : BitVec 32)).toInt : ℝ) : EReal) = 0
    norm_num

/-- The reset value of the first accumulator is zero everywhere. -/
theorem pay2_apply (y : S512x512.Idx) : k0_pay2 (F := Ideal) y = (0 : EReal) := by
  unfold k0_pay2
  rw [shapeCast_self]
  exact Ideal.ofBits_zero_f32

/-- The reset value of the second accumulator is zero everywhere. -/
theorem pay3_apply (y : S512x512.Idx) : k0_pay3 (F := Ideal) y = (0 : EReal) := by
  unfold k0_pay3
  rw [shapeCast_self]
  exact Ideal.ofBits_zero_f32

/-- The accumulate step of the first accumulator at entry (r, q): the old value plus the block's entry at the
    column the index word of `q` selects, if that column lies in window `k = i 2`. -/
theorem pay6_apply (i : grid0.Coords) (v7 : Vec Ideal S1x512 .i32) (v21 v23 : Vec Ideal S512x512 .f32) (r q : Fin 512) :
    k0_pay6 (F := Ideal) i v7 v21 v23 (ix2 r q)
      = v23 (ix2 r q) + (if h : (i 2).val * 512 ≤ (v7 (ix2 (0 : Fin 1) q)).toNat ∧ (v7 (ix2 (0 : Fin 1) q)).toNat < (i 2).val * 512 + 512
          then v21 (ix2 r ⟨(v7 (ix2 (0 : Fin 1) q)).toNat - (i 2).val * 512, by omega⟩) else (0 : EReal)) := by
  have hk : (i 2).val < 32 := (i 2).isLt
  unfold k0_pay6
  simp only [shapeCast_self, addf_apply]
  refine congrArg (v23 (ix2 r q) + ·) ?_
  -- the product into the zero accumulator is the sum over the contraction, re-indexed by Fin 512
  refine (Ideal.matmul_constant_zero_apply D none _ _ (ix2 r q)).trans ?_
  rw [← Equiv.sum_comp cE.symm]
  -- term c is x(r, c) times the indicator of "c + 512·k is the index word's value"; the sum keeps one term
  refine (Finset.sum_congr rfl fun c _ => ?_).trans
    (Cert.LogicLayer.sum_onehot (fun c => v21 (ix2 r c)) ((i 2).val * 512) (v7 (ix2 (0 : Fin 1) q)).toNat)
  rw [lhs_at, rhs_at]
  show v21 (ix2 r c) * FloatOps.sitofp (F := Ideal) .f32 ((IntOp.cmpi .eq (k0_pay4 i (ix2 c q))
      (broadcastTo S512x512 v7 broadcasts_S1x512_S512x512 (ix2 c q))).setWidth 32) = _
  rw [pay4_apply, broadcastTo_1b_ab_apply]
  exact congrArg (v21 (ix2 r c) * ·) (onehot_word _ (by have := c.isLt; omega) _)

/-- The same for the second accumulator. -/
theorem pay7_apply (i : grid0.Coords) (v9 : Vec Ideal S1x512 .i32) (v21 v29 : Vec Ideal S512x512 .f32) (r q : Fin 512) :
    k0_pay7 (F := Ideal) i v9 v21 v29 (ix2 r q)
      = v29 (ix2 r q) + (if h : (i 2).val * 512 ≤ (v9 (ix2 (0 : Fin 1) q)).toNat ∧ (v9 (ix2 (0 : Fin 1) q)).toNat < (i 2).val * 512 + 512
          then v21 (ix2 r ⟨(v9 (ix2 (0 : Fin 1) q)).toNat - (i 2).val * 512, by omega⟩) else (0 : EReal)) := by
  -- the second accumulator's step is the same term as the first's, under other names
  exact pay6_apply i v9 v21 v29 r q

/-- The output block at entry (r, q): the polynomial of the two accumulators' entries with column `q`'s four coefficients. -/
theorem pay1_apply (a b : Vec Ideal S512x512 .f32) (cf : Vec Ideal S4x512 .f32) (r q : Fin 512) :
    k0_pay1 (F := Ideal) a b cf (ix2 r q)
      = cf (ix2 (0 : Fin 4) q) + cf (ix2 (1 : Fin 4) q) * a (ix2 r q) + cf (ix2 (2 : Fin 4) q) * b (ix2 r q)
          + cf (ix2 (3 : Fin 4) q) * (a (ix2 r q) * b (ix2 r q)) := by
  -- each coefficient row, broadcast down the block and read at (r, q), is that row of the [4, 512] block at column q
  have row : ∀ (o : Nat) (k : Fin 4) (hk : k.val = o + (0 : Fin 1).val) (h : S4x512.Slices ![o, 0] S1x512),
      broadcastTo S512x512 (extractStridedSlice S1x512 ![o, 0] cf h) broadcasts_S1x512_S512x512 (ix2 r q)
        = cf (ix2 k q) := by
    intro o k hk h
    rw [broadcastTo_1b_ab_apply]
    exact slice2_axis0_apply o cf h (0 : Fin 1) q k hk
  unfold k0_pay1
  simp only [shapeCast_self, addf_apply, mulf_apply]
  rw [row 0 0 rfl, row 1 1 rfl, row 2 2 rfl, row 3 3 rfl]

end Cert.KernelIdeal.KStep

end
-- ==== Proof.KAcc.lean ====
/-
  The kernel's output array, read entry by entry over the extended reals.
  The grid's 4096 points run in rows of 32: point `t` works on batch tile `i = t / 1024`, neuron tile
  `j = t / 32 % 32` and input window `k = t % 32`. Along a row the two accumulators gather: after window `k`
  entry (r, q) of the first holds `x[512·i + r, idx]` if the index word `idx = idx_a[512·j + q]` lies below
  `512·(k + 1)` and zero otherwise — the window that contains `idx` contributes exactly that one entry of its
  block, every other window contributes zero (the 0/1 column has no one in it). After the last window the
  accumulators hold the two gathered columns (every index word is below 16384 = 512·32), and the block written
  back is the polynomial of them with the tile's coefficient columns. The written blocks tile the whole array.
-/
import proofs.«400150_j57509612094159_1_alg».proof.Proof.Gen.KernelIdeal.Value
import proofs.«400150_j57509612094159_1_alg».proof.Proof.KPieces
import proofs.«400150_j57509612094159_1_alg».proof.Proof.KStep
import proofs.«400150_j57509612094159_1_alg».proof.Proof.KHost
import proofs.«400150_j57509612094159_1_alg».proof.Proof.Spec
import Idealize.ShloMosaic.Lib.ValueIdx
import Idealize.ShloMosaic.Lib.Pipeline.Value

set_option maxRecDepth 16384

noncomputable section

namespace Cert.KernelIdeal.KAcc

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx
open Cert.LogicLayer (col outAt out)

variable (m : (ℓ : Loc nD τ sig) → Buf (Elt Ideal) ℓ)

/-! ## Points, tiles and windows -/

theorem tlt (t : Fin cfg0.N) : t.val < 4096 := lt_of_lt_of_eq t.isLt (show cfg0.N = 4096 from N_0)

/-- The printed index maps, decided over the grid: which tile of each array a point's block is, and the point's
    position in its row of 32. -/
theorem idx_facts : ∀ t : Fin cfg0.N,
    win0_0.index t (0 : Fin 2) = t.val / 1024 ∧ win0_0.index t (1 : Fin 2) = t.val % 32
    ∧ win0_1.index t (0 : Fin 2) = 0 ∧ win0_1.index t (1 : Fin 2) = t.val / 32 % 32
    ∧ win0_2.index t (0 : Fin 2) = 0 ∧ win0_2.index t (1 : Fin 2) = t.val / 32 % 32
    ∧ win0_3.index t (0 : Fin 2) = 0 ∧ win0_3.index t (1 : Fin 2) = t.val / 32 % 32
    ∧ win0_4.index t (0 : Fin 2) = t.val / 1024 ∧ win0_4.index t (1 : Fin 2) = t.val / 32 % 32
    ∧ (grid0.coords t 2).val = t.val % 32 :=
  (by decide +kernel : ∀ t : Fin grid0.N, _)

/-- Row `r` of point `t`'s batch tile, as a row of the whole array. -/
def rowOf (t : Fin cfg0.N) (r : Fin 512) : Fin 2048 := ⟨t.val / 1024 * 512 + r.val, by have := tlt t; have := r.isLt; omega⟩
/-- Column `q` of point `t`'s input window, as a column of the input array. -/
def kcolOf (t : Fin cfg0.N) (q : Fin 512) : Fin 16384 := ⟨t.val % 32 * 512 + q.val, by have := q.isLt; omega⟩
/-- Column `q` of point `t`'s neuron tile, as a neuron. -/
def jcolOf (t : Fin cfg0.N) (q : Fin 512) : Fin 16384 := ⟨t.val / 32 % 32 * 512 + q.val, by have := q.isLt; omega⟩

/-- The arrays as the region finds them, at their literal types. -/
abbrev xarr (c : Dev nD) : Vec Ideal S2048x16384 .f32 := V m c main_arg0
abbrev iarow (c : Dev nD) : Vec Ideal S1x16384 .i32 := V m c main_v13
abbrev ibrow (c : Dev nD) : Vec Ideal S1x16384 .i32 := V m c main_v14
abbrev cfarr (c : Dev nD) : Vec Ideal S4x16384 .f32 := V m c main_v12
/-- A point's four input blocks, at their literal types. -/
abbrev xblk (c : Dev nD) (t : Fin cfg0.N) : Vec Ideal S512x512 .f32 := iblk m c 0 t
abbrev iablk (c : Dev nD) (t : Fin cfg0.N) : Vec Ideal S1x512 .i32 := iblk m c 1 t
abbrev ibblk (c : Dev nD) (t : Fin cfg0.N) : Vec Ideal S1x512 .i32 := iblk m c 2 t
abbrev cfblk (c : Dev nD) (t : Fin cfg0.N) : Vec Ideal S4x512 .f32 := iblk m c 3 t

/-! ## A block's entry is the array's entry at the tile's offset -/

theorem xblk_apply (c : Dev nD) (t : Fin cfg0.N) (r q : Fin 512) :
    xblk m c t (ix2 r q) = xarr m c (ix2 (rowOf t r) (kcolOf t q)) := by
  obtain ⟨e0, e1, -⟩ := idx_facts t
  show V m c main_arg0 (((cfg0.win 0).blk t).view.emb (ix2 r q)) = V m c main_arg0 (ix2 (rowOf t r) (kcolOf t q))
  congr 1
  funext a; apply Fin.ext
  match a with
  | ⟨0, _⟩ => show win0_0.index t (0 : Fin 2) * 512 + 1 * r.val = t.val / 1024 * 512 + r.val; omega
  | ⟨1, _⟩ => show win0_0.index t (1 : Fin 2) * 512 + 1 * q.val = t.val % 32 * 512 + q.val; omega

theorem iablk_apply (c : Dev nD) (t : Fin cfg0.N) (q : Fin 512) :
    iablk m c t (ix2 (0 : Fin 1) q) = iarow m c (ix2 (0 : Fin 1) (jcolOf t q)) := by
  obtain ⟨-, -, e0, e1, -⟩ := idx_facts t
  show V m c main_v13 (((cfg0.win 1).blk t).view.emb (ix2 (0 : Fin 1) q)) = V m c main_v13 (ix2 (0 : Fin 1) (jcolOf t q))
  congr 1
  funext a; apply Fin.ext
  match a with
  | ⟨0, _⟩ => show win0_1.index t (0 : Fin 2) * 1 + 1 * (0 : Fin 1).val = (0 : Fin 1).val; simp only [Fin.val_zero]; omega
  | ⟨1, _⟩ => show win0_1.index t (1 : Fin 2) * 512 + 1 * q.val = t.val / 32 % 32 * 512 + q.val; omega

theorem ibblk_apply (c : Dev nD) (t : Fin cfg0.N) (q : Fin 512) :
    ibblk m c t (ix2 (0 : Fin 1) q) = ibrow m c (ix2 (0 : Fin 1) (jcolOf t q)) := by
  obtain ⟨-, -, -, -, e0, e1, -⟩ := idx_facts t
  show V m c main_v14 (((cfg0.win 2).blk t).view.emb (ix2 (0 : Fin 1) q)) = V m c main_v14 (ix2 (0 : Fin 1) (jcolOf t q))
  congr 1
  funext a; apply Fin.ext
  match a with
  | ⟨0, _⟩ => show win0_2.index t (0 : Fin 2) * 1 + 1 * (0 : Fin 1).val = (0 : Fin 1).val; simp only [Fin.val_zero]; omega
  | ⟨1, _⟩ => show win0_2.index t (1 : Fin 2) * 512 + 1 * q.val = t.val / 32 % 32 * 512 + q.val; omega

theorem cfblk_apply (c : Dev nD) (t : Fin cfg0.N) (s : Fin 4) (q : Fin 512) :
    cfblk m c t (ix2 s q) = cfarr m c (ix2 s (jcolOf t q)) := by
  obtain ⟨-, -, -, -, -, -, e0, e1, -⟩ := idx_facts t
  show V m c main_v12 (((cfg0.win 3).blk t).view.emb (ix2 s q)) = V m c main_v12 (ix2 s (jcolOf t q))
  congr 1
  funext a; apply Fin.ext
  match a with
  | ⟨0, _⟩ => show win0_3.index t (0 : Fin 2) * 4 + 1 * s.val = s.val; omega
  | ⟨1, _⟩ => show win0_3.index t (1 : Fin 2) * 512 + 1 * q.val = t.val / 32 % 32 * 512 + q.val; omega

/-! ## The accumulators along a row of 32 points -/

/-- What an accumulator entry holds once the windows below `kk` have been added: the gathered entry if its
    index word lies below `512·kk`, zero if not yet met. -/
def accSpec (xa : Vec Ideal S2048x16384 .f32) (w : BitVec 32) (row : Fin 2048) (kk : ℕ) : EReal :=
  if w.toNat < kk * 512 then xa (ix2 row (col w)) else 0

/-- The accumulate step with the window number and the index word named: old value plus the one entry of the
    block this window owns, if the word falls in it. -/
theorem step6 (i : grid0.Coords) (v7 : Vec Ideal S1x512 .i32) (v21 v23 : Vec Ideal S512x512 .f32) (r q : Fin 512)
    (k : ℕ) (hk : (i 2).val = k) (w : BitVec 32) (hw : v7 (ix2 (0 : Fin 1) q) = w) :
    k0_pay6 (F := Ideal) i v7 v21 v23 (ix2 r q)
      = v23 (ix2 r q) + (if h : k * 512 ≤ w.toNat ∧ w.toNat < k * 512 + 512
          then v21 (ix2 r ⟨w.toNat - k * 512, by omega⟩) else (0 : EReal)) := by
  subst hk; subst hw
  exact KStep.pay6_apply i v7 v21 v23 r q

theorem step7 (i : grid0.Coords) (v9 : Vec Ideal S1x512 .i32) (v21 v29 : Vec Ideal S512x512 .f32) (r q : Fin 512)
    (k : ℕ) (hk : (i 2).val = k) (w : BitVec 32) (hw : v9 (ix2 (0 : Fin 1) q) = w) :
    k0_pay7 (F := Ideal) i v9 v21 v29 (ix2 r q)
      = v29 (ix2 r q) + (if h : k * 512 ≤ w.toNat ∧ w.toNat < k * 512 + 512
          then v21 (ix2 r ⟨w.toNat - k * 512, by omega⟩) else (0 : EReal)) := by
  subst hk; subst hw
  exact KStep.pay7_apply i v9 v21 v29 r q

/-- One window's contribution on top of the partial gather: the block's entry at the word's place in the window IS
    the array's entry at the word's column, so the sum is the partial gather one window further. -/
theorem acc_step (c : Dev nD) (t : Fin cfg0.N) (r q : Fin 512) (w : BitVec 32) (old : EReal)
    (hold : old = accSpec (xarr m c) w (rowOf t r) (t.val % 32)) :
    old + (if h : t.val % 32 * 512 ≤ w.toNat ∧ w.toNat < t.val % 32 * 512 + 512
        then xblk m c t (ix2 r ⟨w.toNat - t.val % 32 * 512, by omega⟩) else (0 : EReal))
      = accSpec (xarr m c) w (rowOf t r) (t.val % 32 + 1) := by
  subst hold
  unfold accSpec
  by_cases h : t.val % 32 * 512 ≤ w.toNat ∧ w.toNat < t.val % 32 * 512 + 512
  · rw [dif_pos h, if_neg (by omega), if_pos (by omega), zero_add, xblk_apply]
    congr 2
    apply Fin.ext
    have hlt : t.val % 32 < 32 := Nat.mod_lt _ (by decide)
    have hw : w.toNat < 16384 := by omega
    show t.val % 32 * 512 + (w.toNat - t.val % 32 * 512) = w.toNat % 16384
    rw [Nat.mod_eq_of_lt hw]
    omega
  · rw [dif_neg h, add_zero]
    by_cases h2 : w.toNat < t.val % 32 * 512
    · rw [if_pos h2, if_pos (by omega)]
    · rw [if_neg h2, if_neg (by omega)]

/-- At the first point of a row the accumulator starts from zero. -/
theorem acc_first (c : Dev nD) (t : Fin cfg0.N) (h0 : t.val % 32 = 0) (r q : Fin 512) (w : BitVec 32) :
    (0 : EReal) = accSpec (xarr m c) w (rowOf t r) (t.val % 32) := by
  unfold accSpec
  rw [h0, if_neg (by omega)]

/-- The point's position in its row, from the grid coordinates. -/
theorem coord2 (t : Fin cfg0.N) : (grid0.coords t 2).val = t.val % 32 := (idx_facts t).2.2.2.2.2.2.2.2.2.2

/-- THE INVARIANT at the first point of a row: both accumulators are reset and receive window 0. -/
theorem inv_first (c : Dev nD) (t : Fin cfg0.N) (h0 : t.val % 32 = 0) (r q : Fin 512) :
    (outsAt0 m c t.val t.isLt).2.1 (ix2 r q) = accSpec (xarr m c) (iarow m c (ix2 (0 : Fin 1) (jcolOf t q))) (rowOf t r) (t.val % 32 + 1)
    ∧ (outsAt0 m c t.val t.isLt).2.2 (ix2 r q) = accSpec (xarr m c) (ibrow m c (ix2 (0 : Fin 1) (jcolOf t q))) (rowOf t r) (t.val % 32 + 1) := by
  have h1 : ¬t.val % 32 = 31 := by omega
  rw [outsAt0_A m c t h0 h1]
  dsimp only
  constructor
  · refine (congrFun (KPieces.sout0_A_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 r q)).trans ?_
    refine (step6 (grid0.coords t) (iablk m c t) (xblk m c t) (k0_pay2 (F := Ideal)) r q (t.val % 32) (coord2 t) _ (iablk_apply m c t q)).trans ?_
    exact acc_step m c t r q _ _ ((KStep.pay2_apply (ix2 r q)).trans (acc_first m c t h0 r q _))
  · refine (congrFun (KPieces.sout0_A_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 r q)).trans ?_
    refine (step7 (grid0.coords t) (ibblk m c t) (xblk m c t) (k0_pay3 (F := Ideal)) r q (t.val % 32) (coord2 t) _ (ibblk_apply m c t q)).trans ?_
    exact acc_step m c t r q _ _ ((KStep.pay3_apply (ix2 r q)).trans (acc_first m c t h0 r q _))

/-- THE INVARIANT at a later point of a row, from the point before: one more window is added. -/
theorem inv_next (c : Dev nD) (t : Fin cfg0.N) (h0 : ¬t.val % 32 = 0)
    (pA : ∀ r q : Fin 512, (outsAt0 m c (t.val - 1) (Nat.lt_of_le_of_lt (Nat.sub_le _ _) t.isLt)).2.1 (ix2 r q) = accSpec (xarr m c) (iarow m c (ix2 (0 : Fin 1) (jcolOf t q))) (rowOf t r) (t.val % 32))
    (pB : ∀ r q : Fin 512, (outsAt0 m c (t.val - 1) (Nat.lt_of_le_of_lt (Nat.sub_le _ _) t.isLt)).2.2 (ix2 r q) = accSpec (xarr m c) (ibrow m c (ix2 (0 : Fin 1) (jcolOf t q))) (rowOf t r) (t.val % 32))
    (r q : Fin 512) :
    (outsAt0 m c t.val t.isLt).2.1 (ix2 r q) = accSpec (xarr m c) (iarow m c (ix2 (0 : Fin 1) (jcolOf t q))) (rowOf t r) (t.val % 32 + 1)
    ∧ (outsAt0 m c t.val t.isLt).2.2 (ix2 r q) = accSpec (xarr m c) (ibrow m c (ix2 (0 : Fin 1) (jcolOf t q))) (rowOf t r) (t.val % 32 + 1) := by
  by_cases h1 : t.val % 32 = 31
  · rw [outsAt0_C m c t h0 h1]
    dsimp only
    constructor
    · refine (congrFun (KPieces.sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 r q)).trans ?_
      refine (step6 (grid0.coords t) (iablk m c t) (xblk m c t) (outsAt0 m c (t.val - 1) (Nat.lt_of_le_of_lt (Nat.sub_le _ _) t.isLt)).2.1 r q (t.val % 32) (coord2 t) _ (iablk_apply m c t q)).trans ?_
      exact acc_step m c t r q _ _ (pA r q)
    · refine (congrFun (KPieces.sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 r q)).trans ?_
      refine (step7 (grid0.coords t) (ibblk m c t) (xblk m c t) (outsAt0 m c (t.val - 1) (Nat.lt_of_le_of_lt (Nat.sub_le _ _) t.isLt)).2.2 r q (t.val % 32) (coord2 t) _ (ibblk_apply m c t q)).trans ?_
      exact acc_step m c t r q _ _ (pB r q)
  · rw [outsAt0_B m c t h0 h1]
    dsimp only
    constructor
    · refine (congrFun (KPieces.sout0_B_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 r q)).trans ?_
      refine (step6 (grid0.coords t) (iablk m c t) (xblk m c t) (outsAt0 m c (t.val - 1) (Nat.lt_of_le_of_lt (Nat.sub_le _ _) t.isLt)).2.1 r q (t.val % 32) (coord2 t) _ (iablk_apply m c t q)).trans ?_
      exact acc_step m c t r q _ _ (pA r q)
    · refine (congrFun (KPieces.sout0_B_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 r q)).trans ?_
      refine (step7 (grid0.coords t) (ibblk m c t) (xblk m c t) (outsAt0 m c (t.val - 1) (Nat.lt_of_le_of_lt (Nat.sub_le _ _) t.isLt)).2.2 r q (t.val % 32) (coord2 t) _ (ibblk_apply m c t q)).trans ?_
      exact acc_step m c t r q _ _ (pB r q)

/-- THE INVARIANT at every point, by induction along the grid: a point that is not first in its row shares its
    tiles with the point before and is one window further. -/
theorem acc_inv (c : Dev nD) : ∀ (n : ℕ) (hn : n < cfg0.N) (r q : Fin 512),
    (outsAt0 m c n hn).2.1 (ix2 r q) = accSpec (xarr m c) (iarow m c (ix2 (0 : Fin 1) (jcolOf ⟨n, hn⟩ q))) (rowOf ⟨n, hn⟩ r) (n % 32 + 1)
    ∧ (outsAt0 m c n hn).2.2 (ix2 r q) = accSpec (xarr m c) (ibrow m c (ix2 (0 : Fin 1) (jcolOf ⟨n, hn⟩ q))) (rowOf ⟨n, hn⟩ r) (n % 32 + 1) := by
  intro n
  induction n with
  | zero => intro hn r q; exact inv_first m c ⟨0, hn⟩ (Nat.zero_mod _) r q
  | succ n ih =>
    intro hn r q
    by_cases h0 : (n + 1) % 32 = 0
    · exact inv_first m c ⟨n + 1, hn⟩ h0 r q
    · have hn' : n < cfg0.N := Nat.lt_of_succ_lt hn
      have ej : ∀ q : Fin 512, jcolOf ⟨n, hn'⟩ q = jcolOf ⟨n + 1, hn⟩ q := fun q => Fin.ext (by
        show n / 32 % 32 * 512 + q.val = (n + 1) / 32 % 32 * 512 + q.val
        have e : n / 32 = (n + 1) / 32 := by omega
        rw [e])
      have er : ∀ r : Fin 512, rowOf ⟨n, hn'⟩ r = rowOf ⟨n + 1, hn⟩ r := fun r => Fin.ext (by
        show n / 1024 * 512 + r.val = (n + 1) / 1024 * 512 + r.val
        have e : n / 1024 = (n + 1) / 1024 := by omega
        rw [e])
      have ek : n % 32 + 1 = (n + 1) % 32 := by omega
      refine inv_next m c ⟨n + 1, hn⟩ h0 (fun r q => ?_) (fun r q => ?_) r q
      · have h := (ih hn' r q).1
        rw [ej, er, ek] at h
        exact h
      · have h := (ih hn' r q).2
        rw [ej, er, ek] at h
        exact h

/-! ## What the last point of a row writes back, and the whole array -/

/-- At a row's last point the accumulate step of the first accumulator IS the run's contents for it there. -/
theorem lastA (c : Dev nD) (t : Fin cfg0.N) (h0 : ¬t.val % 32 = 0) (h1 : t.val % 32 = 31) :
    k0_pay6 (F := Ideal) (grid0.coords t) (iblk m c 1 t) (iblk m c 0 t) (outsAt0 m c (t.val - 1) (Nat.lt_of_le_of_lt (Nat.sub_le _ _) t.isLt)).2.1 = (outsAt0 m c t.val t.isLt).2.1 := by
  rw [outsAt0_C m c t h0 h1]
  dsimp only
  exact (KPieces.sout0_C_0_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).symm

theorem lastB (c : Dev nD) (t : Fin cfg0.N) (h0 : ¬t.val % 32 = 0) (h1 : t.val % 32 = 31) :
    k0_pay7 (F := Ideal) (grid0.coords t) (iblk m c 2 t) (iblk m c 0 t) (outsAt0 m c (t.val - 1) (Nat.lt_of_le_of_lt (Nat.sub_le _ _) t.isLt)).2.2 = (outsAt0 m c t.val t.isLt).2.2 := by
  rw [outsAt0_C m c t h0 h1]
  dsimp only
  exact (KPieces.sout0_C_1_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2).symm

/-- Entry (r, q) of the block a row's last point writes back: the polynomial of the two gathered entries with
    the neuron's four coefficients — the specification's entry at the block's place in the array. -/
theorem flushed_apply (c : Dev nD)
    (ha : ∀ j : Fin 16384, ((m ((c : Thread nD τ).loc main_arg1) : Vec Ideal S16384 .i32) (ix1 j)).toNat < 16384)
    (hb : ∀ j : Fin 16384, ((m ((c : Thread nD τ).loc main_arg2) : Vec Ideal S16384 .i32) (ix1 j)).toNat < 16384)
    (t : Fin cfg0.N) (h1 : t.val % 32 = 31) (r q : Fin 512) :
    ((dats m 0 c).flushed 4 t : Vec Ideal S512x512 .f32) (ix2 r q)
      = outAt (KHost.kcoef (m ((c : Thread nD τ).loc main_arg3))) (m ((c : Thread nD τ).loc main_arg0)) (m ((c : Thread nD τ).loc main_arg1)) (m ((c : Thread nD τ).loc main_arg2)) (rowOf t r) (jcolOf t q) := by
  have h0 : ¬t.val % 32 = 0 := by omega
  have e4 := KPieces.out0_C_4_eq c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  rw [flushed4_C m c t h0 h1, e4, lastA m c t h0 h1, lastB m c t h0 h1]
  refine (KStep.pay1_apply (outsAt0 m c t.val t.isLt).2.1 (outsAt0 m c t.val t.isLt).2.2 (cfblk m c t) r q).trans ?_
  obtain ⟨eA, eB⟩ := acc_inv m c t.val t.isLt r q
  have wa : iarow m c (ix2 (0 : Fin 1) (jcolOf t q)) = (m ((c : Thread nD τ).loc main_arg1) : Vec Ideal S16384 .i32) (ix1 (jcolOf t q)) := KHost.ia_apply m c (jcolOf t q)
  have wb : ibrow m c (ix2 (0 : Fin 1) (jcolOf t q)) = (m ((c : Thread nD τ).loc main_arg2) : Vec Ideal S16384 .i32) (ix1 (jcolOf t q)) := KHost.ib_apply m c (jcolOf t q)
  have ca : ∀ s : Fin 4, cfarr m c (ix2 s (jcolOf t q)) = KHost.kcoef (m ((c : Thread nD τ).loc main_arg3)) (ix2 (jcolOf t q) s) := fun s => KHost.cf_apply m c s (jcolOf t q)
  have xa : xarr m c = m ((c : Thread nD τ).loc main_arg0) := V_main_arg0 m c
  have hA : ((m ((c : Thread nD τ).loc main_arg1) : Vec Ideal S16384 .i32) (ix1 (jcolOf t q))).toNat < (31 + 1) * 512 := by have := ha (jcolOf t q); omega
  have hB : ((m ((c : Thread nD τ).loc main_arg2) : Vec Ideal S16384 .i32) (ix1 (jcolOf t q))).toNat < (31 + 1) * 512 := by have := hb (jcolOf t q); omega
  rw [eA, eB, cfblk_apply, cfblk_apply, cfblk_apply, cfblk_apply, ca, ca, ca, ca, wa, wb, xa]
  unfold accSpec outAt
  rw [h1, if_pos hA, if_pos hB]

/-- The array position of entry (r, q) of the block written at point `t`. -/
theorem emb4 (t : Fin cfg0.N) (r q : Fin 512) :
    (((cfg0.win 4).blk t).view.emb (ix2 r q) : S2048x16384.Idx) = ix2 (rowOf t r) (jcolOf t q) := by
  obtain ⟨-, -, -, -, -, -, -, -, e0, e1, -⟩ := idx_facts t
  funext a; apply Fin.ext
  match a with
  | ⟨0, _⟩ => show win0_4.index t (0 : Fin 2) * 512 + 1 * r.val = t.val / 1024 * 512 + r.val; omega
  | ⟨1, _⟩ => show win0_4.index t (1 : Fin 2) * 512 + 1 * q.val = t.val / 32 % 32 * 512 + q.val; omega

/-- The whole-array function the written blocks are blocks of. -/
abbrev G (c : Dev nD) : Vec Ideal S2048x16384 .f32 :=
  out (KHost.kcoef (m ((c : Thread nD τ).loc main_arg3))) (m ((c : Thread nD τ).loc main_arg0)) (m ((c : Thread nD τ).loc main_arg1)) (m ((c : Thread nD τ).loc main_arg2))

/-- WHAT A WRITING POINT WRITES BACK is its block of the specification's array. -/
theorem flushed_eq (c : Dev nD)
    (ha : ∀ j : Fin 16384, ((m ((c : Thread nD τ).loc main_arg1) : Vec Ideal S16384 .i32) (ix1 j)).toNat < 16384)
    (hb : ∀ j : Fin 16384, ((m ((c : Thread nD τ).loc main_arg2) : Vec Ideal S16384 .i32) (ix1 j)).toNat < 16384)
    (t : Fin cfg0.N) (hf : (cfg0.win 4).flush t = true) :
    (dats m 0 c).flushed 4 t = ((cfg0.win 4).blk t).view.read (Elt Ideal) (G m c) := by
  have h1 : t.val % 32 = 31 := (flush0_4 t).mp hf
  funext j
  obtain ⟨r, q, rfl⟩ : ∃ (r q : Fin 512), j = (ix2 r q : S512x512.Idx) := ⟨j 0, j 1, eq_ix2 (n0 := 512) (n1 := 512) j⟩
  show ((dats m 0 c).flushed 4 t : Vec Ideal S512x512 .f32) (ix2 r q) = G m c (((cfg0.win 4).blk t).view.emb (ix2 r q))
  rw [emb4]
  exact flushed_apply m c ha hb t h1 r q

/-- An index of the array is in point `t`'s output block iff each coordinate is in the block's range on its axis. -/
theorem mem_blk4 (t : Fin cfg0.N) (i : S2048x16384.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v15).slice (win0_4.rect t)).set ↔ _
  rw [View.set_slice_whole, Rect.mem_set_unit]
  exact Iff.rfl

/-- Every entry of the array lies in the block written at the last point of its tile's row. -/
theorem cover4 (i : S2048x16384.Idx) :
    ∃ t : Fin cfg0.N, (cfg0.win 4).flush t = true ∧ i ∈ ((cfg0.win 4).blk t).view.set := by
  have hi0 : (i 0).val < 2048 := (i 0).isLt
  have hi1 : (i 1).val < 16384 := (i 1).isLt
  have hN : (i 0).val / 512 * 1024 + (i 1).val / 512 * 32 + 31 < cfg0.N := by
    rw [show cfg0.N = 4096 from N_0]; omega
  obtain ⟨-, -, -, -, -, -, -, -, e0, e1, -⟩ := idx_facts ⟨_, hN⟩
  have e0' : win0_4.index ⟨_, hN⟩ (0 : Fin 2) = ((i 0).val / 512 * 1024 + (i 1).val / 512 * 32 + 31) / 1024 := e0
  have e1' : win0_4.index ⟨_, hN⟩ (1 : Fin 2) = ((i 0).val / 512 * 1024 + (i 1).val / 512 * 32 + 31) / 32 % 32 := e1
  refine ⟨⟨_, hN⟩, (flush0_4 _).mpr (by show ((i 0).val / 512 * 1024 + (i 1).val / 512 * 32 + 31) % 32 = 31; omega), ?_⟩
  rw [mem_blk4]
  intro a
  match a with
  | ⟨0, _⟩ =>
    show win0_4.index ⟨_, hN⟩ (0 : Fin 2) * 512 ≤ (i 0).val ∧ (i 0).val < win0_4.index ⟨_, hN⟩ (0 : Fin 2) * 512 + 512
    rw [e0']; omega
  | ⟨1, _⟩ =>
    show win0_4.index ⟨_, hN⟩ (1 : Fin 2) * 512 ≤ (i 1).val ∧ (i 1).val < win0_4.index ⟨_, hN⟩ (1 : Fin 2) * 512 + 512
    rw [e1']; omega

/-- THE OUTPUT ARRAY after the run: the specification's function of the four argument arrays, when both index
    vectors are in range. -/
theorem final (c : Dev nD)
    (ha : ∀ j : Fin 16384, ((m ((c : Thread nD τ).loc main_arg1) : Vec Ideal S16384 .i32) (ix1 j)).toNat < 16384)
    (hb : ∀ j : Fin 16384, ((m ((c : Thread nD τ).loc main_arg2) : Vec Ideal S16384 .i32) (ix1 j)).toNat < 16384) :
    (dats m 0 c).arrAt 4 cfg0.N = out (KHost.kcoef (m ((c : Thread nD τ).loc main_arg3))) (m ((c : Thread nD τ).loc main_arg0)) (m ((c : Thread nD τ).loc main_arg1)) (m ((c : Thread nD τ).loc main_arg2)) :=
  (dats m 0 c).arrAt_eq_of_cover 4 (G m c) (fun t hf => flushed_eq m c ha hb t hf) cover4

end Cert.KernelIdeal.KAcc

end
-- ==== Proof.lean ====
/-
  A logic layer: output neuron `j` gathers two columns of the input, `a = x[:, idx_a[j]]` and `b = x[:, idx_b[j]]`,
  and returns the polynomial `c₀ + c₁·a + c₂·b + c₃·(a·b)`, whose coefficients are a softmax of the neuron's
  sixteen weights multiplied into the fixed table of the sixteen binary logic operations.

  The kernel has no gather: per 512 × 512 output tile it walks the 32 windows of the input row, multiplies each
  window's block of `x` by a 0/1 matrix that has a one where "row position = index word", and accumulates. Over the
  extended reals a product with that matrix keeps the one entry the index selects and adds zeros — exactly, with
  no finiteness needed, since `x · 0 = 0` there for every `x` — so after the last window the accumulators hold
  the two gathered columns, PROVIDED every index word lies in `[0, 16384)`: an index outside the row is met by no
  window and leaves a zero, where the reference's numpy-style indexing wraps a negative index and clamps a large
  one. The statement therefore carries the index range in its precondition.

  The coefficient chain (softmax, product with the table) is the same sequence of operations in both programs
  and is never opened: it is carried as one function of the weights. Everything else is the three frames (the two
  kernel programs' generated, the reference's read off its run), the trivial `preserves` (the idealization rewrote
  nothing), and the two runs set side by side at the one function `LogicLayer.out`.
-/
import proofs.«400150_j57509612094159_1_alg».proof.Defs
import proofs.«400150_j57509612094159_1_alg».proof.Proof.Gen.Kernel
import proofs.«400150_j57509612094159_1_alg».proof.Proof.Gen.Kernel.Skeleton
import proofs.«400150_j57509612094159_1_alg».proof.Proof.Gen.Kernel.Launch
import proofs.«400150_j57509612094159_1_alg».proof.Proof.Gen.Kernel.Points
import proofs.«400150_j57509612094159_1_alg».proof.Proof.Gen.Kernel.Frame
import proofs.«400150_j57509612094159_1_alg».proof.Proof.Gen.KernelIdeal
import proofs.«400150_j57509612094159_1_alg».proof.Proof.Gen.KernelIdeal.Skeleton
import proofs.«400150_j57509612094159_1_alg».proof.Proof.Gen.KernelIdeal.Launch
import proofs.«400150_j57509612094159_1_alg».proof.Proof.Gen.KernelIdeal.Points
import proofs.«400150_j57509612094159_1_alg».proof.Proof.Gen.KernelIdeal.Frame
import proofs.«400150_j57509612094159_1_alg».proof.Proof.Gen.KernelIdeal.Value
import proofs.«400150_j57509612094159_1_alg».proof.Proof.Gen.ReferenceIdeal
import proofs.«400150_j57509612094159_1_alg».proof.Proof.Gen.Pre_finite_inputs
import proofs.«400150_j57509612094159_1_alg».proof.Proof.PreDecode
import proofs.«400150_j57509612094159_1_alg».proof.Proof.CoefEq
import proofs.«400150_j57509612094159_1_alg».proof.Proof.RefRun
import proofs.«400150_j57509612094159_1_alg».proof.Proof.RefValue
import proofs.«400150_j57509612094159_1_alg».proof.Proof.KAcc
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel's program as printed, at the word level: it runs and leaves its arguments alone. -/
theorem frame_k : Cert.frame_Kernel := fun m ρ _ => Cert.Kernel.Gen.frame m ρ

/-- The same program read over the extended reals. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs, from memories that agree on the four arguments and satisfy the precondition, end with the
    result array at `LogicLayer.out` of the coefficient chain of the weights, the input and the two index vectors. -/
theorem algebraic : Cert.algebraic_KernelIdeal_ReferenceIdeal := by
  intro m ρ m' ρ' hpre hagree
  -- the precondition bounds every index word
  have hr : ∀ c : Dev Cert.KernelIdeal.nD,
      (∀ j : Fin 16384, ((m ((c.tc : Thread Cert.KernelIdeal.nD Cert.KernelIdeal.τ).loc Cert.KernelIdeal.main_arg1) : Vec Ideal Cert.KernelIdeal.S16384 .i32) (ix1 j)).toNat < 16384)
      ∧ (∀ j : Fin 16384, ((m ((c.tc : Thread Cert.KernelIdeal.nD Cert.KernelIdeal.τ).loc Cert.KernelIdeal.main_arg2) : Vec Ideal Cert.KernelIdeal.S16384 .i32) (ix1 j)).toNat < 16384) :=
    fun c => Cert.LogicLayer.PreDecode.idx_in_range _ _ _ _ (hpre c)
  refine ⟨fun c => Cert.LogicLayer.out (Cert.KernelIdeal.KHost.kcoef (m ((c.tc : Thread Cert.KernelIdeal.nD Cert.KernelIdeal.τ).loc Cert.KernelIdeal.main_arg3)))
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)), ?_, ?_⟩
  · -- the kernel: its run names the output array, which the accumulation along each row of points turns into the specification
    exact (θ_run Cert.KernelIdeal.defs _ _).mono
      (fun r h c => ⟨(h c).1.trans (Cert.KernelIdeal.KAcc.final m c (hr c).1 (hr c).2), (h c).2⟩)
      (Cert.KernelIdeal.Value.run_blocks m ρ)
  · -- the reference: its run's term, on the agreeing arguments, with the shared coefficient chain, read entry by entry
    refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2, ← Cert.LogicLayer.kcoef_eq_coef]
    exact Cert.ReferenceIdeal.RefValue.tail_eq _ _ _ _ (hr c).1 (hr c).2

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
